-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S640000x128 : Shape := ⟨2, ![640000, 128]⟩
abbrev S384x128 : Shape := ⟨2, ![384, 128]⟩
abbrev S128 : Shape := ⟨1, ![128]⟩
abbrev S128x384 : Shape := ⟨2, ![128, 384]⟩
abbrev S384 : Shape := ⟨1, ![384]⟩
abbrev S640000 : Shape := ⟨1, ![640000]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S640000 : S_.BroadcastsInDim S640000 (![] : Fin 0 → Fin S640000.rank)
  reducesTo_S640000_S_d0 : S640000.ReducesTo [0] S_

variable [Facts]

def fn_part3 {F : FTy → Type} [FloatOps F] (main_v45 : IVec S_ 1) (main_v50 : IVec S640000 1) : IVec S_ 1 :=
  let main_c_19 : IVec S_ 1 := constantI S_ 1 1#1
  let main_v51 : IVec S_ 1 := (fun x v => Host.reduce IntOp.andi x v reducesTo_S640000_S_d0 h_S_) main_v50 main_c_19
  let main_v52 : IVec S_ 1 := andi main_v45 main_v51
  main_v52

def fn_part2 {F : FTy → Type} [FloatOps F] (main_arg7 : FVec F S128 .f32) (main_arg8 : IVec S640000 32) (main_arg9 : IVec S640000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S640000 32 := broadcastInDim S640000 ![] bcast_S_S640000 main_c_14
  let main_v40 : IVec S640000 1 := cmpi .sge main_arg8 main_v39
  let main_c_15 : IVec S_ 32 := constantI S_ 32 20000#32
  let main_v41 : IVec S640000 32 := broadcastInDim S640000 ![] bcast_S_S640000 main_c_15
  let main_v42 : IVec S640000 1 := cmpi .slt main_arg8 main_v41
  let main_v43 : IVec S640000 1 := andi main_v40 main_v42
  let main_c_16 : IVec S_ 1 := constantI S_ 1 1#1
  let main_v44 : IVec S_ 1 := (fun x v => Host.reduce IntOp.andi x v reducesTo_S640000_S_d0 h_S_) main_v43 main_c_16
  let main_v45 : IVec S_ 1 := andi main_v38 main_v44
  let main_c_17 : IVec S_ 32 := constantI S_ 32 0#32
  let main_v46 : IVec S640000 32 := broadcastInDim S640000 ![] bcast_S_S640000 main_c_17
  let main_v47 : IVec S640000 1 := cmpi .sge main_arg9 main_v46
  let main_c_18 : IVec S_ 32 := constantI S_ 32 20000#32
  let main_v48 : IVec S640000 32 := broadcastInDim S640000 ![] bcast_S_S640000 main_c_18
  let main_v49 : IVec S640000 1 := cmpi .slt main_arg9 main_v48
  let main_v50 : IVec S640000 1 := andi main_v47 main_v49
  fn_part3 (F := F) main_v45 main_v50

def fn_part1 {F : FTy → Type} [FloatOps F] (main_arg4 : FVec F S128x384 .f32) (main_arg5 : FVec F S384 .f32) (main_arg6 : FVec F S128x384 .f32) (main_arg7 : FVec F S128 .f32) (main_arg8 : IVec S640000 32) (main_arg9 : IVec S640000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x384 .f32 := Host.absf main_arg4
  let main_cst_6 : FVec F S_ .f32 := constant S_ .f32 0x7F800000#32
  let main_v20 : FVec F S128x384 .f32 := broadcastInDim S128x384 ![] bcast_S_S128x384 main_cst_6
  let main_v21 : IVec S128x384 1 := cmpf .olt main_v19 main_v20
  let main_c_7 : IVec S_ 1 := constantI S_ 1 1#1
  let main_v22 : IVec S_ 1 := (fun x v => Host.reduce IntOp.andi x v reducesTo_S128x384_S_d0_1 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S128x384 .f32 := Host.absf main_arg6
  let main_cst_10 : FVec F S_ .f32 := constant S_ .f32 0x7F800000#32
  let main_v30 : FVec F S128x384 .f32 := broadcastInDim S128x384 ![] bcast_S_S128x384 main_cst_10
  let main_v31 : IVec S128x384 1 := cmpf .olt main_v29 main_v30
  let main_c_11 : IVec S_ 1 := constantI S_ 1 1#1
  let main_v32 : IVec S_ 1 := (fun x v => Host.reduce IntOp.andi x v reducesTo_S128x384_S_d0_1 h_S_) main_v31 main_c_11
  let main_v33 : IVec S_ 1 := andi main_v28 main_v32
  fn_part2 (F := F) main_arg7 main_arg8 main_arg9 main_v33

def fn {F : FTy → Type} [FloatOps F] (main_arg0 : FVec F S20000x128 .f32) (main_arg1 : FVec F S640000x128 .f32) (main_arg2 : FVec F S384x128 .f32) (main_arg3 : FVec F S128 .f32) (main_arg4 : FVec F S128x384 .f32) (main_arg5 : FVec F S384 .f32) (main_arg6 : FVec F S128x384 .f32) (main_arg7 : FVec F S128 .f32) (main_arg8 : IVec S640000 32) (main_arg9 : IVec S640000 32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S384x128 .f32 := Host.absf main_arg2
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S20000x128 : Shape := ⟨2, ![20000, 128]⟩
abbrev S640000x128 : Shape := ⟨2, ![640000, 128]⟩
abbrev S384x128 : Shape := ⟨2, ![384, 128]⟩
abbrev S128 : Shape := ⟨1, ![128]⟩
abbrev S128x384 : Shape := ⟨2, ![128, 384]⟩
abbrev S384 : Shape := ⟨1, ![384]⟩
abbrev S640000 : Shape := ⟨1, ![640000]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S5000x128 : Shape := ⟨2, ![5000, 128]⟩
abbrev S5000x384 : Shape := ⟨2, ![5000, 384]⟩
abbrev S1x128 : Shape := ⟨2, ![1, 128]⟩
abbrev S2000x128 : Shape := ⟨2, ![2000, 128]⟩
abbrev S2000x384 : Shape := ⟨2, ![2000, 384]⟩
abbrev S1x384 : Shape := ⟨2, ![1, 384]⟩

abbrev nBuf : Space → Nat
  | .hbm => 62
  | .vmem => 20
  | .smem => 0
  | _ => 0

abbrev bufTy : (tb : Table) → Fin (tcTables nBuf tb) → BufTy
  | .hbm, ⟨0, _⟩ => ⟨S20000x128, .f32⟩
  | .hbm, ⟨1, _⟩ => ⟨S640000x128, .f32⟩
  | .hbm, ⟨2, _⟩ => ⟨S384x128, .f32⟩
  | .hbm, ⟨3, _⟩ => ⟨S128, .f32⟩
  | .hbm, ⟨4, _⟩ => ⟨S128x384, .f32⟩
  | .hbm, ⟨5, _⟩ => ⟨S384, .f32⟩
  | .hbm, ⟨6, _⟩ => ⟨S128x384, .f32⟩
  | .hbm, ⟨7, _⟩ => ⟨S128, .f32⟩
  | .hbm, ⟨8, _⟩ => ⟨S640000, .i32⟩
  | .hbm, ⟨9, _⟩ => ⟨S640000, .i32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S1, .i32⟩
  | .hbm, ⟨19, _⟩ => ⟨S_, .i32⟩
  | .hbm, ⟨20, _⟩ => ⟨S640000x1, .i32⟩
  | .hbm, ⟨21, _⟩ => ⟨S640000x1, .i1⟩
  | .hbm, ⟨22, _⟩ => ⟨S1x1, .i32⟩
  | .hbm, ⟨23, _⟩ => ⟨S640000x1, .i32⟩
  | .hbm, ⟨24, _⟩ => ⟨S640000x1, .i1⟩
  | .hbm, ⟨25, _⟩ => ⟨S640000x1, .i1⟩
  | .hbm, ⟨26, _⟩ => ⟨S_, .i1⟩
  | .hbm, ⟨27, _⟩ => ⟨S640000, .i1⟩
  | .hbm, ⟨28, _⟩ => ⟨S640000x128, .f32⟩
  | .hbm, ⟨29, _⟩ => ⟨S640000x128, .i1⟩
  | .hbm, ⟨30, _⟩ => ⟨S_, .f32⟩
  | .hbm, ⟨31, _⟩ => ⟨S640000x128, .f32⟩
  | .hbm, ⟨32, _⟩ => ⟨S640000x128, .f32⟩
  | .hbm, ⟨33, _⟩ => ⟨S_, .i32⟩
  | .hbm, ⟨34, _⟩ => ⟨S640000, .i32⟩
  | .hbm, ⟨35, _⟩ => ⟨S640000, .i1⟩
  | .hbm, ⟨36, _⟩ => ⟨S_, .i32⟩
  | .hbm, ⟨37, _⟩ => ⟨S640000, .i32⟩
  | .hbm, ⟨38, _⟩ => ⟨S640000, .i32⟩
  | .hbm, ⟨39, _⟩ => ⟨S640000, .i32⟩
  | .hbm, ⟨40, _⟩ => ⟨S640000x1, .i32⟩
  | .hbm, ⟨41, _⟩ => ⟨S1, .i32⟩
  | .hbm, ⟨42, _⟩ => ⟨S_, .i32⟩
  | .hbm, ⟨43, _⟩ => ⟨S640000x1, .i32⟩
  | .hbm, ⟨44, _⟩ => ⟨S640000x1, .i1⟩
  | .hbm, ⟨45, _⟩ => ⟨S1x1, .i32⟩
  | .hbm, ⟨46, _⟩ => ⟨S640000x1, .i32⟩
  | .hbm, ⟨47, _⟩ => ⟨S640000x1, .i1⟩
  | .hbm, ⟨48, _⟩ => ⟨S640000x1, .i1⟩
  | .hbm, ⟨49, _⟩ => ⟨S_, .i1⟩
  | .hbm, ⟨50, _⟩ => ⟨S640000, .i1⟩
  | .hbm, ⟨51, _⟩ => ⟨S640000x128, .f32⟩
  | .hbm, ⟨52, _⟩ => ⟨S640000x128, .i1⟩
  | .hbm, ⟨53, _⟩ => ⟨S_, .f32⟩
  | .hbm, ⟨54, _⟩ => ⟨S640000x128, .f32⟩
  | .hbm, ⟨55, _⟩ => ⟨S640000x128, .f32⟩
  | .hbm, ⟨56, _⟩ => ⟨S640000x128, .f32⟩
  | .hbm, ⟨57, _⟩ => ⟨S_, .f32⟩
  | .hbm, ⟨58, _⟩ => ⟨S20000x128, .f32⟩
  | .hbm, ⟨59, _⟩ => ⟨S640000x1, .i32⟩
  | .hbm, ⟨60, _⟩ => ⟨S20000x128, .f32⟩
  | .hbm, ⟨61, _⟩ => ⟨S20000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S384x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x384, .f32⟩
  | .local _ .vmem, ⟨15, _⟩ => ⟨S384, .f32⟩
  | .local _ .vmem, ⟨16, _⟩ => ⟨S128x384, .f32⟩
  | .local _ .vmem, ⟨17, _⟩ => ⟨S128, .f32⟩
  | .local _ .vmem, ⟨18, _⟩ => ⟨S2000x128, .f32⟩
  | .local _ .vmem, ⟨19, _⟩ => ⟨S2000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v1 : Ref sig .tc := ⟨.hbm, 55, rfl⟩
abbrev main_v2 : Ref sig .tc := ⟨.hbm, 56, rfl⟩
abbrev main_cst : Ref sig .tc := ⟨.hbm, 57, rfl⟩
abbrev main_v3 : Ref sig .tc := ⟨.hbm, 58, rfl⟩
abbrev main_v4 : Ref sig .tc := ⟨.hbm, 59, rfl⟩
abbrev main_v5 : Ref sig .tc := ⟨.hbm, 60, rfl⟩
abbrev main_v6 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x128_S5000x384_d1 : Shape.Concatenates [S5000x128, S5000x128, S5000x128] S5000x384 1
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S20000x128 : S_.BroadcastsInDim S20000x128 (![] : Fin 0 → Fin S20000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x384_S128x384_0_0 : ∀ a, (![0, 0] : Fin 2 → Nat) a + S128x384.size a ≤ S128x384.size a
  h_S128x384 : 0 < S128x384.numel
  inb_S384_S384_0 : ∀ a, (![0] : Fin 1 → Nat) a + S384.size a ≤ S384.size a
  h_S384 : 0 < S384.numel
  shapeCasts_S384_S1x384 : S384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  broadcasts_S1x128_S2000x128 : S1x128.Broadcasts S2000x128
  gather_S20000x128_S640000x1_S640000x128_1_0_n_n_0_1_1128_wf : GatherDims.WF S20000x128 S640000x1 S640000x128 [1] [0] [] [0] [] 1 ![1, 128]
  dot_S5000x384_S384x128_S5000x128_1_0_0_1_n_n_wf : DotDims.WF S5000x384 S384x128 S5000x128 [1] [0] [0] [1] [] []
  scatter_S20000x128_S640000x1_S640000x128_1_0_0_1_wf : ScatterDims.WF S20000x128 S640000x1 S640000x128 [1] [0] [0] 1
  dot_S2000x128_S128x384_S2000x384_1_0_0_1_n_n_wf : DotDims.WF S2000x128 S128x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S640000x128.size a
  hwx0_0 : ∀ i : grid0.Coords, EltTy.bits .f32 = 32 ∨ (Rect.block (s := S640000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S640000x128.size a
  hwx0_1 : ∀ i : grid0.Coords, EltTy.bits .f32 = 32 ∨ (Rect.block (s := S640000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S640000x128.size a
  hwx0_2 : ∀ i : grid0.Coords, EltTy.bits .f32 = 32 ∨ (Rect.block (s := S640000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .f32 = 32 ∨ (Rect.block (s := S384x128) S384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S640000x128.size a
  hwx0_5 : ∀ i : grid0.Coords, EltTy.bits .f32 = 32 ∨ (Rect.block (s := S640000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S20000x128.size a
  hwx1_1 : ∀ i : grid1.Coords, EltTy.bits .f32 = 32 ∨ (Rect.block (s := S20000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x384.size a ≤ S128x384.size a
  hwx1_2 : ∀ i : grid1.Coords, EltTy.bits .f32 = 32 ∨ (Rect.block (s := S128x384) S128x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384.size a ≤ S384.size a
  hwx1_3 : ∀ i : grid1.Coords, EltTy.bits .f32 = 32 ∨ (Rect.block (s := S384) S384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x384.size a ≤ S128x384.size a
  hwx1_4 : ∀ i : grid1.Coords, EltTy.bits .f32 = 32 ∨ (Rect.block (s := S128x384) S128x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S20000x128.size a
  hwx1_6 : ∀ i : grid1.Coords, EltTy.bits .f32 = 32 ∨ (Rect.block (s := S20000x128) S2000x128.size (cc1_transform_6 i) (hinb1_6 i)).WholeWords (EltTy.packing .f32)

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S5000x384_S384x128_S5000x128_1_0_0_1_n_n : DotDims S5000x384 S384x128 S5000x128 where
  lhsContracting := [1]
  rhsContracting := [0]
  lhsNonContracting := [0]
  rhsNonContracting := [1]
  lhsBatch := []
  rhsBatch := []
  wf := dot_S5000x384_S384x128_S5000x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S20000x128 : Shape := ⟨2, ![20000, 128]⟩
abbrev S640000x128 : Shape := ⟨2, ![640000, 128]⟩
abbrev S384x128 : Shape := ⟨2, ![384, 128]⟩
abbrev S128 : Shape := ⟨1, ![128]⟩
abbrev S128x384 : Shape := ⟨2, ![128, 384]⟩
abbrev S384 : Shape := ⟨1, ![384]⟩
abbrev S640000 : Shape := ⟨1, ![640000]⟩
abbrev S_ : Shape := ⟨0, ![]⟩
abbrev S640000x1 : Shape := ⟨2, ![640000, 1]⟩
abbrev S640000x384 : Shape := ⟨2, ![640000, 384]⟩
abbrev S1x128 : Shape := ⟨2, ![1, 128]⟩
abbrev S20000x384 : Shape := ⟨2, ![20000, 384]⟩
abbrev S1x384 : Shape := ⟨2, ![1, 384]⟩

abbrev nBuf : Space → Nat
  | .hbm => 81
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S640000x128, .f32⟩
  | .hbm, ⟨2, _⟩ => ⟨S384x128, .f32⟩
  | .hbm, ⟨3, _⟩ => ⟨S128, .f32⟩
  | .hbm, ⟨4, _⟩ => ⟨S128x384, .f32⟩
  | .hbm, ⟨5, _⟩ => ⟨S384, .f32⟩
  | .hbm, ⟨6, _⟩ => ⟨S128x384, .f32⟩
  | .hbm, ⟨7, _⟩ => ⟨S128, .f32⟩
  | .hbm, ⟨8, _⟩ => ⟨S640000, .i32⟩
  | .hbm, ⟨9, _⟩ => ⟨S640000, .i32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S640000x384, .f32⟩
  | .hbm, ⟨29, _⟩ => ⟨S640000x128, .f32⟩
  | .hbm, ⟨30, _⟩ => ⟨S1x128, .f32⟩
  | .hbm, ⟨31, _⟩ => ⟨S640000x128, .f32⟩
  | .hbm, ⟨32, _⟩ => ⟨S640000x128, .f32⟩
  | .hbm, ⟨33, _⟩ => ⟨S_, .f32⟩
  | .hbm, ⟨34, _⟩ => ⟨S640000x128, .f32⟩
  | .hbm, ⟨35, _⟩ => ⟨S640000x128, .f32⟩
  | .hbm, ⟨36, _⟩ => ⟨S_, .f32⟩
  | .hbm, ⟨37, _⟩ => ⟨S20000x128, .f32⟩
  | .hbm, ⟨38, _⟩ => ⟨S640000x1, .i32⟩
  | .hbm, ⟨39, _⟩ => ⟨S20000x128, .f32⟩
  | .hbm, ⟨40, _⟩ => ⟨S20000x384, .f32⟩
  | .hbm, ⟨41, _⟩ => ⟨S1x384, .f32⟩
  | .hbm, ⟨42, _⟩ => ⟨S20000x384, .f32⟩
  | .hbm, ⟨43, _⟩ => ⟨S20000x384, .f32⟩
  | .hbm, ⟨44, _⟩ => ⟨S20000x384, .f32⟩
  | .hbm, ⟨45, _⟩ => ⟨S20000x128, .f32⟩
  | .hbm, ⟨46, _⟩ => ⟨S20000x128, .f32⟩
  | .hbm, ⟨47, _⟩ => ⟨S20000x128, .f32⟩
  | .hbm, ⟨48, _⟩ => ⟨S20000x128, .f32⟩
  | .hbm, ⟨49, _⟩ => ⟨S20000x128, .f32⟩
  | .hbm, ⟨50, _⟩ => ⟨S20000x128, .f32⟩
  | .hbm, ⟨51, _⟩ => ⟨S20000x128, .f32⟩
  | .hbm, ⟨52, _⟩ => ⟨S20000x128, .f32⟩
  | .hbm, ⟨53, _⟩ => ⟨S20000x128, .f32⟩
  | .hbm, ⟨54, _⟩ => ⟨S_, .f32⟩
  | .hbm, ⟨55, _⟩ => ⟨S20000x128, .f32⟩
  | .hbm, ⟨56, _⟩ => ⟨S20000x128, .f32⟩
  | .hbm, ⟨57, _⟩ => ⟨S_, .f32⟩
  | .hbm, ⟨58, _⟩ => ⟨S20000x128, .f32⟩
  | .hbm, ⟨59, _⟩ => ⟨S20000x128, .f32⟩
  | .hbm, ⟨60, _⟩ => ⟨S20000x128, .f32⟩
  | .hbm, ⟨61, _⟩ => ⟨S20000x128, .f32⟩
  | .hbm, ⟨62, _⟩ => ⟨S20000x128, .f32⟩
  | .hbm, ⟨63, _⟩ => ⟨S_, .f32⟩
  | .hbm, ⟨64, _⟩ => ⟨S20000x128, .f32⟩
  | .hbm, ⟨65, _⟩ => ⟨S20000x128, .f32⟩
  | .hbm, ⟨66, _⟩ => ⟨S_, .f32⟩
  | .hbm, ⟨67, _⟩ => ⟨S20000x128, .f32⟩
  | .hbm, ⟨68, _⟩ => ⟨S20000x128, .f32⟩
  | .hbm, ⟨69, _⟩ => ⟨S1x128, .f32⟩
  | .hbm, ⟨70, _⟩ => ⟨S20000x128, .f32⟩
  | .hbm, ⟨71, _⟩ => ⟨S20000x128, .f32⟩
  | .hbm, ⟨72, _⟩ => ⟨S20000x128, .f32⟩
  | .hbm, ⟨73, _⟩ => ⟨S20000x128, .f32⟩
  | .hbm, ⟨74, _⟩ => ⟨S20000x128, .f32⟩
  | .hbm, ⟨75, _⟩ => ⟨S_, .f32⟩
  | .hbm, ⟨76, _⟩ => ⟨S20000x128, .f32⟩
  | .hbm, ⟨77, _⟩ => ⟨S20000x128, .f32⟩
  | .hbm, ⟨78, _⟩ => ⟨S20000x128, .f32⟩
  | .hbm, ⟨79, _⟩ => ⟨S20000x128, .f32⟩
  | .hbm, ⟨80, _⟩ => ⟨S20000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_5 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_7 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S20000x128 : S_.BroadcastsInDim S20000x128 (![] : Fin 0 → Fin S20000x128.rank)
  bcast_S384_S1x384_1 : S384.BroadcastsInDim S1x384 (![1] : Fin 1 → Fin S1x384.rank)
  bcast_S1x384_S20000x384_0_1 : S1x384.BroadcastsInDim S20000x384 (![0, 1] : Fin 2 → Fin S20000x384.rank)
  slices_S20000x384_S20000x128_0_0 : S20000x384.Slices ![0, 0] S20000x128
  slices_S20000x384_S20000x128_0_128 : S20000x384.Slices ![0, 128] S20000x128
  slices_S20000x384_S20000x128_0_256 : S20000x384.Slices ![0, 256] S20000x128
  bcast_S1x128_S20000x128_0_1 : S1x128.BroadcastsInDim S20000x128 (![0, 1] : Fin 2 → Fin S20000x128.rank)
  gather_S20000x128_S640000x1_S640000x128_1_0_n_n_0_1_1128_wf : GatherDims.WF S20000x128 S640000x1 S640000x128 [1] [0] [] [0] [] 1 ![1, 128]
  dot_S640000x384_S384x128_S640000x128_1_0_0_1_n_n_wf : DotDims.WF S640000x384 S384x128 S640000x128 [1] [0] [0] [1] [] []
  scatter_S20000x128_S640000x1_S640000x128_1_0_0_1_wf : ScatterDims.WF S20000x128 S640000x1 S640000x128 [1] [0] [0] 1
  dot_S20000x128_S128x384_S20000x384_1_0_0_1_n_n_wf : DotDims.WF S20000x128 S128x384 S20000x384 [1] [0] [0] [1] [] []

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S640000x384_S384x128_S640000x128_1_0_0_1_n_n : DotDims S640000x384 S384x128 S640000x128 where
  lhsContracting := [1]
  rhsContracting := [0]
  lhsNonContracting := [0]
  rhsNonContracting := [1]
  lhsBatch := []
  rhsBatch := []
  wf := dot_S640000x384_S384x128_S640000x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S20000x128_S128x384_S20000x384_1_0_0_1_n_n : DotDims S20000x128 S128x384 S20000x384 where
  lhsContracting := [1]
  rhsContracting := [0]
  lhsNonContracting := [0]
  rhsNonContracting := [1]
  lhsBatch := []
  rhsBatch := []
  wf := dot_S20000x128_S128x384_S20000x384_1_0_0_1_n_n_wf

class Facts : Prop extends Facts₀ where

variable [Facts]
-- ==== Proof.Spec.lean ====
/-
  The two whole-array functions both programs compute, index by index, on the extended reals.

  Edge messages: row n of the concatenation [sent | received | edge features] (384 entries) times the weight matrix,
  plus the bias, clipped below at zero.  Node update: a GRU cell whose input is the aggregated messages and whose
  state is the node features; its three gates read the column blocks [0,128), [128,256), [256,384) of the two
  products  A·Wi + bi  and  X·Wh.

  Every entry of either function at row n reads its row-indexed operands at row n only: a block of rows of the
  result is the same function of the same block of rows of the operands (the statements `msgAt_rows`, `gruAt_rows`).
-/
import Idealize.ShloMosaic.Lib.ValueIdx

noncomputable section

open scoped BigOperators

namespace Cert.Spec

open Idealize.ShloMosaic Idealize.ShloMosaic.ValueIdx

/-- Entry k of row n of the concatenation of three 128-column arrays along the columns. -/
def cat3 {N : Nat} (s r e : (⟨2, ![N, 128]⟩ : Shape).Idx → EReal) (n : Fin N) (k : Fin 384) : EReal :=
  if h : k.val < 128 then s (ix2 n ⟨k.val, h⟩)
  else if h2 : k.val < 256 then r (ix2 n ⟨k.val - 128, by omega⟩)
  else e (ix2 n ⟨k.val - 256, by omega⟩)

/-- The message of edge n, column j: max (Σₖ [s|r|e](n,k) · W(k,j) + b(j), 0). -/
def msgAt {N : Nat} (s r e : (⟨2, ![N, 128]⟩ : Shape).Idx → EReal) (W : (⟨2, ![384, 128]⟩ : Shape).Idx → EReal)
    (b : (⟨1, ![128]⟩ : Shape).Idx → EReal) (n : Fin N) (j : Fin 128) : EReal :=
  max ((∑ k : Fin 384, cat3 s r e n k * W (ix2 k j)) + b (ix1 j)) 0

/-- The message array. -/
def msgFn {N : Nat} (s r e : (⟨2, ![N, 128]⟩ : Shape).Idx → EReal) (W : (⟨2, ![384, 128]⟩ : Shape).Idx → EReal)
    (b : (⟨1, ![128]⟩ : Shape).Idx → EReal) : (⟨2, ![N, 128]⟩ : Shape).Idx → EReal :=
  fun i => msgAt s r e W b ⟨(i 0).val, (i 0).isLt⟩ ⟨(i 1).val, (i 1).isLt⟩

/-- Input-side gate pre-activation: (A·Wi + bi)(n, c). -/
def gi {N : Nat} (A : (⟨2, ![N, 128]⟩ : Shape).Idx → EReal) (Wi : (⟨2, ![128, 384]⟩ : Shape).Idx → EReal)
    (bi : (⟨1, ![384]⟩ : Shape).Idx → EReal) (n : Fin N) (c : Fin 384) : EReal :=
  (∑ k : Fin 128, A (ix2 n k) * Wi (ix2 k c)) + bi (ix1 c)

/-- State-side gate pre-activation: (X·Wh)(n, c). -/
def gh {N : Nat} (X : (⟨2, ![N, 128]⟩ : Shape).Idx → EReal) (Wh : (⟨2, ![128, 384]⟩ : Shape).Idx → EReal)
    (n : Fin N) (c : Fin 384) : EReal :=
  ∑ k : Fin 128, X (ix2 n k) * Wh (ix2 k c)

/-- Reset gate r = σ(gi(n,j) + gh(n,j)). -/
def gateR {N : Nat} (X A : (⟨2, ![N, 128]⟩ : Shape).Idx → EReal) (Wi : (⟨2, ![128, 384]⟩ : Shape).Idx → EReal)
    (bi : (⟨1, ![384]⟩ : Shape).Idx → EReal) (Wh : (⟨2, ![128, 384]⟩ : Shape).Idx → EReal) (n : Fin N) (j : Fin 128) : EReal :=
  Ideal.logistic (gi A Wi bi n ⟨j.val, by omega⟩ + gh X Wh n ⟨j.val, by omega⟩)

/-- Update gate z = σ(gi(n,128+j) + gh(n,128+j)). -/
def gateZ {N : Nat} (X A : (⟨2, ![N, 128]⟩ : Shape).Idx → EReal) (Wi : (⟨2, ![128, 384]⟩ : Shape).Idx → EReal)
    (bi : (⟨1, ![384]⟩ : Shape).Idx → EReal) (Wh : (⟨2, ![128, 384]⟩ : Shape).Idx → EReal) (n : Fin N) (j : Fin 128) : EReal :=
  Ideal.logistic (gi A Wi bi n ⟨128 + j.val, by omega⟩ + gh X Wh n ⟨128 + j.val, by omega⟩)

/-- Candidate state tanh(gi(n,256+j) + r · (gh(n,256+j) + bhn(j))). -/
def cand {N : Nat} (X A : (⟨2, ![N, 128]⟩ : Shape).Idx → EReal) (Wi : (⟨2, ![128, 384]⟩ : Shape).Idx → EReal)
    (bi : (⟨1, ![384]⟩ : Shape).Idx → EReal) (Wh : (⟨2, ![128, 384]⟩ : Shape).Idx → EReal)
    (bhn : (⟨1, ![128]⟩ : Shape).Idx → EReal) (n : Fin N) (j : Fin 128) : EReal :=
  Ideal.tanh (gi A Wi bi n ⟨256 + j.val, by omega⟩ + gateR X A Wi bi Wh n j * (gh X Wh n ⟨256 + j.val, by omega⟩ + bhn (ix1 j)))

/-- The new state (1 − z) · candidate + z · X(n,j). -/
def gruAt {N : Nat} (X A : (⟨2, ![N, 128]⟩ : Shape).Idx → EReal) (Wi : (⟨2, ![128, 384]⟩ : Shape).Idx → EReal)
    (bi : (⟨1, ![384]⟩ : Shape).Idx → EReal) (Wh : (⟨2, ![128, 384]⟩ : Shape).Idx → EReal)
    (bhn : (⟨1, ![128]⟩ : Shape).Idx → EReal) (n : Fin N) (j : Fin 128) : EReal :=
  (1 - gateZ X A Wi bi Wh n j) * cand X A Wi bi Wh bhn n j + gateZ X A Wi bi Wh n j * X (ix2 n j)

/-- The updated node array. -/
def gruFn {N : Nat} (X A : (⟨2, ![N, 128]⟩ : Shape).Idx → EReal) (Wi : (⟨2, ![128, 384]⟩ : Shape).Idx → EReal)
    (bi : (⟨1, ![384]⟩ : Shape).Idx → EReal) (Wh : (⟨2, ![128, 384]⟩ : Shape).Idx → EReal)
    (bhn : (⟨1, ![128]⟩ : Shape).Idx → EReal) : (⟨2, ![N, 128]⟩ : Shape).Idx → EReal :=
  fun i => gruAt X A Wi bi Wh bhn ⟨(i 0).val, (i 0).isLt⟩ ⟨(i 1).val, (i 1).isLt⟩

/-! ## Row locality -/

/-- Rows [o, o + M) of the concatenation are the concatenation of those rows. -/
theorem cat3_rows {N M : Nat} (s r e : (⟨2, ![N, 128]⟩ : Shape).Idx → EReal) (s' r' e' : (⟨2, ![M, 128]⟩ : Shape).Idx → EReal)
    (n : Fin N) (p : Fin M)
    (hs : ∀ q : Fin 128, s' (ix2 p q) = s (ix2 n q)) (hr : ∀ q : Fin 128, r' (ix2 p q) = r (ix2 n q))
    (he : ∀ q : Fin 128, e' (ix2 p q) = e (ix2 n q)) (k : Fin 384) : cat3 s' r' e' p k = cat3 s r e n k := by
  unfold cat3
  split
  · exact hs _
  · split
    · exact hr _
    · exact he _

/-- A message at row p of a block of rows is the message at the row n the block's row p is. -/
theorem msgAt_rows {N M : Nat} (s r e : (⟨2, ![N, 128]⟩ : Shape).Idx → EReal) (s' r' e' : (⟨2, ![M, 128]⟩ : Shape).Idx → EReal)
    (W : (⟨2, ![384, 128]⟩ : Shape).Idx → EReal) (b : (⟨1, ![128]⟩ : Shape).Idx → EReal) (n : Fin N) (p : Fin M)
    (hs : ∀ q : Fin 128, s' (ix2 p q) = s (ix2 n q)) (hr : ∀ q : Fin 128, r' (ix2 p q) = r (ix2 n q))
    (he : ∀ q : Fin 128, e' (ix2 p q) = e (ix2 n q)) (j : Fin 128) : msgAt s' r' e' W b p j = msgAt s r e W b n j := by
  unfold msgAt
  simp only [cat3_rows s r e s' r' e' n p hs hr he]

/-- A new state at row p of a block of rows is the new state at the row n the block's row p is. -/
theorem gruAt_rows {N M : Nat} (X A : (⟨2, ![N, 128]⟩ : Shape).Idx → EReal) (X' A' : (⟨2, ![M, 128]⟩ : Shape).Idx → EReal)
    (Wi : (⟨2, ![128, 384]⟩ : Shape).Idx → EReal) (bi : (⟨1, ![384]⟩ : Shape).Idx → EReal)
    (Wh : (⟨2, ![128, 384]⟩ : Shape).Idx → EReal) (bhn : (⟨1, ![128]⟩ : Shape).Idx → EReal) (n : Fin N) (p : Fin M)
    (hX : ∀ q : Fin 128, X' (ix2 p q) = X (ix2 n q)) (hA : ∀ q : Fin 128, A' (ix2 p q) = A (ix2 n q)) (j : Fin 128) :
    gruAt X' A' Wi bi Wh bhn p j = gruAt X A Wi bi Wh bhn n j := by
  unfold gruAt cand gateZ gateR gi gh
  simp only [hX, hA]

end Cert.Spec

end
-- ==== Proof.EdgeValue.lean ====
/-
  Edge messages: what the first kernel leaves in the message array.

  At grid point t the kernel reads rows [5000·t, 5000·t + 5000) of the two gathered endpoint arrays and of the edge
  features, the whole weight matrix and the bias, and writes back the same rows of the result: each entry the clipped
  sum  max (Σₖ [s|r|e](n,k) · W(k,j) + b(j), 0).  The 128 blocks tile the 640000 rows, so the array ends holding that
  function of the region's entry contents everywhere.
-/
import proofs.«429358_j88811333747467_1_alg».proof.Proof.Gen.KernelIdeal.Frame
import proofs.«429358_j88811333747467_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Edge

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's arithmetic at an index -/

/-- The three-way column concatenation read at row p, column k. -/
theorem cat_apply (x0 x1 x2 : S5000x128.Idx → Elt Ideal .f32) (p : Fin 5000) (k : Fin 384) :
    concatenate S5000x384 1 [⟨S5000x128, x0⟩, ⟨S5000x128, x1⟩, ⟨S5000x128, x2⟩]
        concatenates_S5000x128_S5000x128_S5000x128_S5000x384_d1 (ix2 p k)
      = Cert.Spec.cat3 x0 x1 x2 p k := by
  unfold Cert.Spec.cat3
  split
  · rename_i h
    refine concatenate_apply_piece (1 : Fin S5000x384.rank) _ _ (ix2 p k) 0 (by simp) S5000x128 x0 rfl rfl 0 rfl
      (ix2 p ⟨k.val, h⟩) (fun b hb => ?_) ?_
    · match b with
      | ⟨0, _⟩ => rfl
      | ⟨1, _⟩ => exact absurd rfl hb
    · show 0 + k.val = k.val
      omega
  · rename_i h
    split
    · rename_i h2
      refine concatenate_apply_piece (1 : Fin S5000x384.rank) _ _ (ix2 p k) 1 (by simp) S5000x128 x1 rfl rfl 128 rfl
        (ix2 p ⟨k.val - 128, by omega⟩) (fun b hb => ?_) ?_
      · match b with
        | ⟨0, _⟩ => rfl
        | ⟨1, _⟩ => exact absurd rfl hb
      · show 128 + (k.val - 128) = k.val
        omega
    · rename_i h2
      refine concatenate_apply_piece (1 : Fin S5000x384.rank) _ _ (ix2 p k) 2 (by simp) S5000x128 x2 rfl rfl 256 rfl
        (ix2 p ⟨k.val - 256, by omega⟩) (fun b hb => ?_) ?_
      · match b with
        | ⟨0, _⟩ => rfl
        | ⟨1, _⟩ => exact absurd rfl hb
      · show 256 + (k.val - 256) = k.val
        omega

/-- The left operand's row is the result's row. -/
theorem lhs_edge_0 (i : S5000x128.Idx) (q : dot_S5000x384_S384x128_S5000x128_1_0_0_1_n_n.contr.Idx) :
    (dot_S5000x384_S384x128_S5000x128_1_0_0_1_n_n.lhsIdx i q 0).val = (i 0).val := by
  unfold DotDims.lhsIdx
  rw [dif_neg (show ¬(0 : Fin S5000x384.rank) ∈ dot_S5000x384_S384x128_S5000x128_1_0_0_1_n_n.lhsBatch by decide), dif_pos (show (0 : Fin S5000x384.rank) ∈ dot_S5000x384_S384x128_S5000x128_1_0_0_1_n_n.lhsNonContracting by decide)]
  rfl
/-- The left operand's column is the contracted index. -/
theorem lhs_edge_1 (i : S5000x128.Idx) (q : dot_S5000x384_S384x128_S5000x128_1_0_0_1_n_n.contr.Idx) :
    (dot_S5000x384_S384x128_S5000x128_1_0_0_1_n_n.lhsIdx i q 1).val = (q ⟨0, by decide⟩).val :=
  dot_S5000x384_S384x128_S5000x128_1_0_0_1_n_n.lhsIdx_val_of_single rfl i q
/-- The right operand's row is the contracted index. -/
theorem rhs_edge_0 (i : S5000x128.Idx) (q : dot_S5000x384_S384x128_S5000x128_1_0_0_1_n_n.contr.Idx) :
    (dot_S5000x384_S384x128_S5000x128_1_0_0_1_n_n.rhsIdx i q 0).val = (q ⟨0, by decide⟩).val :=
  dot_S5000x384_S384x128_S5000x128_1_0_0_1_n_n.rhsIdx_val_of_single rfl i q
/-- The right operand's column is the result's column. -/
theorem rhs_edge_1 (i : S5000x128.Idx) (q : dot_S5000x384_S384x128_S5000x128_1_0_0_1_n_n.contr.Idx) :
    (dot_S5000x384_S384x128_S5000x128_1_0_0_1_n_n.rhsIdx i q 1).val = (i 1).val := by
  unfold DotDims.rhsIdx
  rw [dif_neg (show ¬(1 : Fin S384x128.rank) ∈ dot_S5000x384_S384x128_S5000x128_1_0_0_1_n_n.rhsBatch by decide), dif_pos (show (1 : Fin S384x128.rank) ∈ dot_S5000x384_S384x128_S5000x128_1_0_0_1_n_n.rhsNonContracting by decide)]
  rfl

/-- The block product into a zero accumulator, read at (p, q): the sum over the 384 contracted columns. -/
theorem mm_apply (L : FVec Ideal S5000x384 .bf16) (R : FVec Ideal S384x128 .bf16) (p : Fin 5000) (q : Fin 128) :
    matmul dot_S5000x384_S384x128_S5000x128_1_0_0_1_n_n none L R (constant S5000x128 .f32 0x00000000#32) (ix2 p q)
      = ∑ k : Fin 384, L (ix2 p k) * R (ix2 k q) := by
  simp only [matmul]
  rw [Ideal.matmul_constant_zero_apply, ← Equiv.sum_comp (ValueIdx.contrEquiv1 dot_S5000x384_S384x128_S5000x128_1_0_0_1_n_n 384 rfl rfl).symm]
  refine Finset.sum_congr rfl fun k _ => ?_
  have hk := ValueIdx.contrEquiv1_symm_val dot_S5000x384_S384x128_S5000x128_1_0_0_1_n_n 384 rfl rfl k
  have el : dot_S5000x384_S384x128_S5000x128_1_0_0_1_n_n.lhsIdx (ix2 p q) ((ValueIdx.contrEquiv1 dot_S5000x384_S384x128_S5000x128_1_0_0_1_n_n 384 rfl rfl).symm k) = ix2 p k := funext fun a => Fin.ext (by
    match a with
    | ⟨0, _⟩ => exact lhs_edge_0 _ _
    | ⟨1, _⟩ => exact (lhs_edge_1 _ _).trans hk)
  have er : dot_S5000x384_S384x128_S5000x128_1_0_0_1_n_n.rhsIdx (ix2 p q) ((ValueIdx.contrEquiv1 dot_S5000x384_S384x128_S5000x128_1_0_0_1_n_n 384 rfl rfl).symm k) = ix2 k q := funext fun a => Fin.ext (by
    match a with
    | ⟨0, _⟩ => exact (rhs_edge_0 _ _).trans hk
    | ⟨1, _⟩ => exact rhs_edge_1 _ _)
  rw [el, er]

/-- The body's arithmetic at (p, q) of a block: the message of the block's row p, column q. -/
theorem pay_apply (x0 x1 x2 : Vec Ideal S5000x128 .f32) (x3 : Vec Ideal S384x128 .f32) (x4 : Vec Ideal S128 .f32)
    (p : Fin 5000) (q : Fin 128) :
    k0_pay1 (F := Ideal) x0 x1 x2 x3 x4 (ix2 p q) = Cert.Spec.msgAt x0 x1 x2 x3 x4 p q := by
  unfold k0_pay1 Cert.Spec.msgAt
  simp only [maximumf_apply, addf_apply, broadcast_apply]
  have e0 : shapeCast S5000x128 x0 shapeCasts_S5000x128_S5000x128 = x0 := shapeCast_self _ _
  have e1 : shapeCast S5000x128 x1 shapeCasts_S5000x128_S5000x128 = x1 := shapeCast_self _ _
  have hzero : FloatOps.ofBits (F := Ideal) FTy.f32 0x00000000#32 = (0 : EReal) := Ideal.ofBits_zero_f32
  rw [e0, e1, mm_apply, hzero, broadcastTo_1b_ab_apply, shapeCast_a_1a_apply]
  simp only [truncf_apply]
  refine congrArg (fun s => max (s + x4 (ix1 q)) 0) (Finset.sum_congr rfl fun k _ => ?_)
  rw [cat_apply]

/-! ## From the blocks to the array -/

theorem zeros2 : (![0, 0] : Fin 2 → Nat) = fun _ => 0 := funext fun a => by fin_cases a <;> rfl
theorem zeros1 : (![0] : Fin 1 → Nat) = fun _ => 0 := funext fun a => by fin_cases a; rfl

/-- The windows' block indices over the grid: the three row-blocked inputs and the output sit at block row t, block
    column 0; the weights and the bias at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The grid has 128 points. -/
theorem point_lt (t : Fin cfg0.N) : t.val < 128 := t.isLt

/-- Row p of the block at point t is row 5000·t + p of the array. -/
abbrev rowOf (t : Fin cfg0.N) (p : Fin 5000) : Fin 640000 := ⟨5000 * t.val + p.val, by have := point_lt t; omega⟩

/-- Element (p, q) of the first input's block at point t sits at (5000·t + p, q). -/
theorem emb_rows0 (t : Fin cfg0.N) (p : Fin 5000) (q : Fin 128) :
    ((cfg0.win 0).blk t).view.emb (ix2 p q) = ix2 (rowOf t p) q := by
  obtain ⟨e00, e01, e10, e11, e20, e21, e30, e31, e40, e50, e51⟩ := index_facts t
  funext a; apply Fin.ext
  match a with
  | ⟨0, _⟩ => show win0_0.index t (0 : Fin 2) * 5000 + 1 * p.val = 5000 * t.val + p.val; rw [e00]; omega
  | ⟨1, _⟩ => show win0_0.index t (1 : Fin 2) * 128 + 1 * q.val = q.val; rw [e01]; omega

/-- The same for the second input's block. -/
theorem emb_rows1 (t : Fin cfg0.N) (p : Fin 5000) (q : Fin 128) :
    ((cfg0.win 1).blk t).view.emb (ix2 p q) = ix2 (rowOf t p) q := by
  obtain ⟨e00, e01, e10, e11, e20, e21, e30, e31, e40, e50, e51⟩ := index_facts t
  funext a; apply Fin.ext
  match a with
  | ⟨0, _⟩ => show win0_1.index t (0 : Fin 2) * 5000 + 1 * p.val = 5000 * t.val + p.val; rw [e10]; omega
  | ⟨1, _⟩ => show win0_1.index t (1 : Fin 2) * 128 + 1 * q.val = q.val; rw [e11]; omega

/-- The same for the edge features' block. -/
theorem emb_rows2 (t : Fin cfg0.N) (p : Fin 5000) (q : Fin 128) :
    ((cfg0.win 2).blk t).view.emb (ix2 p q) = ix2 (rowOf t p) q := by
  obtain ⟨e00, e01, e10, e11, e20, e21, e30, e31, e40, e50, e51⟩ := index_facts t
  funext a; apply Fin.ext
  match a with
  | ⟨0, _⟩ => show win0_2.index t (0 : Fin 2) * 5000 + 1 * p.val = 5000 * t.val + p.val; rw [e20]; omega
  | ⟨1, _⟩ => show win0_2.index t (1 : Fin 2) * 128 + 1 * q.val = q.val; rw [e21]; omega

/-- The same for the result's block. -/
theorem emb_rows5 (t : Fin cfg0.N) (p : Fin 5000) (q : Fin 128) :
    ((cfg0.win 5).blk t).view.emb (ix2 p q) = ix2 (rowOf t p) q := by
  obtain ⟨e00, e01, e10, e11, e20, e21, e30, e31, e40, e50, e51⟩ := index_facts t
  funext a; apply Fin.ext
  match a with
  | ⟨0, _⟩ => show win0_5.index t (0 : Fin 2) * 5000 + 1 * p.val = 5000 * t.val + p.val; rw [e50]; omega
  | ⟨1, _⟩ => show win0_5.index t (1 : Fin 2) * 128 + 1 * q.val = q.val; rw [e51]; omega

/-- The weights' block is the whole matrix: element y sits at y. -/
theorem emb_whole3 (t : Fin cfg0.N) (y : S384x128.Idx) : ((cfg0.win 3).blk t).view.emb y = y := by
  obtain ⟨e00, e01, e10, e11, e20, e21, e30, e31, e40, e50, e51⟩ := index_facts t
  funext a; apply Fin.ext
  match a with
  | ⟨0, _⟩ => show win0_3.index t (0 : Fin 2) * 384 + 1 * (y 0).val = (y 0).val; rw [e30]; omega
  | ⟨1, _⟩ => show win0_3.index t (1 : Fin 2) * 128 + 1 * (y 1).val = (y 1).val; rw [e31]; omega

/-- The bias's block is the whole vector. -/
theorem emb_whole4 (t : Fin cfg0.N) (y : S128.Idx) : ((cfg0.win 4).blk t).view.emb y = y := by
  obtain ⟨e00, e01, e10, e11, e20, e21, e30, e31, e40, e50, e51⟩ := index_facts t
  funext a; apply Fin.ext
  match a with
  | ⟨0, _⟩ => show win0_4.index t (0 : Fin 1) * 128 + 1 * (y 0).val = (y 0).val; rw [e40]; omega

/-- The first input's block at point t, read at (p, q): the array at (5000·t + p, q). -/
theorem blk0_apply (c : Dev nD) (t : Fin cfg0.N) (p : Fin 5000) (q : Fin 128) :
    (iblk0 V c 0 t : Vec Ideal S5000x128 .f32) (ix2 p q) = (V c main_v0 : S640000x128.Idx → EReal) (ix2 (rowOf t p) q) := by
  show V c main_v0 (((cfg0.win 0).blk t).view.emb (ix2 p q)) = V c main_v0 _
  rw [emb_rows0 t p q]

/-- The second input's block likewise. -/
theorem blk1_apply (c : Dev nD) (t : Fin cfg0.N) (p : Fin 5000) (q : Fin 128) :
    (iblk0 V c 1 t : Vec Ideal S5000x128 .f32) (ix2 p q) = (V c main_v1 : S640000x128.Idx → EReal) (ix2 (rowOf t p) q) := by
  show V c main_v1 (((cfg0.win 1).blk t).view.emb (ix2 p q)) = V c main_v1 _
  rw [emb_rows1 t p q]

/-- The edge features' block likewise. -/
theorem blk2_apply (c : Dev nD) (t : Fin cfg0.N) (p : Fin 5000) (q : Fin 128) :
    (iblk0 V c 2 t : Vec Ideal S5000x128 .f32) (ix2 p q) = (V c main_arg1 : S640000x128.Idx → EReal) (ix2 (rowOf t p) q) := by
  show V c main_arg1 (((cfg0.win 2).blk t).view.emb (ix2 p q)) = V c main_arg1 _
  rw [emb_rows2 t p q]

/-- The weights' block at any point is the weight matrix. -/
theorem blk3_eq (c : Dev nD) (t : Fin cfg0.N) :
    (iblk0 V c 3 t : Vec Ideal S384x128 .f32) = (V c main_arg2 : S384x128.Idx → EReal) := by
  funext y
  show V c main_arg2 (((cfg0.win 3).blk t).view.emb y) = V c main_arg2 y
  rw [emb_whole3 t y]

/-- The bias's block at any point is the bias. -/
theorem blk4_eq (c : Dev nD) (t : Fin cfg0.N) :
    (iblk0 V c 4 t : Vec Ideal S128 .f32) = (V c main_arg3 : S128.Idx → EReal) := by
  funext y
  show V c main_arg3 (((cfg0.win 4).blk t).view.emb y) = V c main_arg3 y
  rw [emb_whole4 t y]

/-- What point t writes back is rows [5000·t, 5000·t + 5000) of the message function of the entry arrays: the body's
    arithmetic on the blocks is the message of each block row, and a message at a row reads its operands at that row only. -/
theorem flushed_eq (c : Dev nD) (t : Fin cfg0.N) :
    (dat0 (F := Ideal) V c).flushed 5 t = ((cfg0.win 5).blk t).view.read (Elt Ideal)
      (Cert.Spec.msgFn (V c main_v0) (V c main_v1) (V c main_arg1) (V c main_arg2) (V c main_arg3)) := by
  show (cfg0.win 5).cut (grid0.coords t) ((dat0 V c).after 5 t) = _
  rw [after0_5]
  unfold out0_5
  rw [View.canon_unit_zero zeros2]
  simp only [View.ld_unit_zero (S := S5000x128) zeros2, View.ld_unit_zero (S := S384x128) zeros2, View.ld_unit_zero (S := S128) zeros1]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = Cert.Spec.msgFn (V c main_v0) (V c main_v1) (V c main_arg1) (V c main_arg2) (V c main_arg3)
        (((cfg0.win 5).blk t).view.emb (ix2 p q))
  rw [emb_rows5 t p q, pay_apply, blk3_eq V c t, blk4_eq V c t]
  exact Cert.Spec.msgAt_rows (V c main_v0) (V c main_v1) (V c main_arg1) (iblk0 V c 0 t) (iblk0 V c 1 t) (iblk0 V c 2 t)
    (V c main_arg2) (V c main_arg3) (rowOf t p) p (blk0_apply V c t p) (blk1_apply V c t p) (blk2_apply V c t p) q

/-- An index of the message array is in point t's block iff each coordinate is in the block's range on its axis. -/
theorem mem_blk (t : Fin cfg0.N) (i : S640000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v2).slice (win0_5.rect t)).set ↔ _
  rw [View.set_slice_whole, Rect.mem_set_unit]
  exact Iff.rfl

/-- Row r lies in the block of point r / 5000: the 128 blocks of 5000 rows tile the 640000 rows. -/
theorem cover (i : S640000x128.Idx) :
    ∃ t : Fin cfg0.N, (cfg0.win 5).flush t = true ∧ i ∈ ((cfg0.win 5).blk t).view.set := by
  have hi0 : (i 0).val < 640000 := (i 0).isLt
  have hi1 : (i 1).val < 128 := (i 1).isLt
  have hlt : (i 0).val / 5000 < 128 := by omega
  obtain ⟨e00, e01, e10, e11, e20, e21, e30, e31, e40, e50, e51⟩ := index_facts ⟨(i 0).val / 5000, hlt⟩
  refine ⟨⟨(i 0).val / 5000, hlt⟩, flush0_5 _, ?_⟩
  rw [mem_blk]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, hlt⟩ (1 : Fin 2) * 128 ≤ (i 1).val
      ∧ (i 1).val < win0_5.index ⟨(i 0).val / 5000, hlt⟩ (1 : Fin 2) * 128 + 128
    rw [e51]
    omega

/-- The message array after the first kernel's 128 grid points: the message function of the arrays the region was
    entered with (the two gathered endpoint arrays, the edge features, the weights, the bias). -/
theorem messages (c : Dev nD) :
    (dat0 (F := Ideal) V c).arrAt 5 cfg0.N
      = Cert.Spec.msgFn (V c main_v0) (V c main_v1) (V c main_arg1) (V c main_arg2) (V c main_arg3) :=
  (dat0 (F := Ideal) V c).arrAt_eq_of_cover 5 _ (fun t _ => flushed_eq V c t) cover

end Cert.KernelIdeal.Edge
end
-- ==== Proof.NodeValue.lean ====
/-
  Node update: what the second kernel leaves in the new-node array.

  At grid point t the kernel reads rows [2000·t, 2000·t + 2000) of the node features and of the aggregated messages,
  the two gate weight matrices and the two biases, and writes back the same rows of the result: each entry the GRU
  cell's new state.  The 10 blocks tile the 20000 rows, so the array ends holding that function of the region's entry
  contents everywhere.
-/
import proofs.«429358_j88811333747467_1_alg».proof.Proof.Gen.KernelIdeal.Frame
import proofs.«429358_j88811333747467_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.KernelIdeal.Node

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The two products, read at an entry -/

/-- Row axis of the left factor: the result's row. -/
theorem gate_lhs_row (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide), dif_pos (show (0 : Fin S2000x128.rank) ∈ dot_S2000x128_S128x384_S2000x384_1_0_0_1_n_n.lhsNonContracting by decide)]
  rfl

/-- Column axis of the left factor: the summation index. -/
theorem gate_lhs_col (i : S2000x384.Idx) (q : dot_S2000x128_S128x384_S2000x384_1_0_0_1_n_n.contr.Idx) :
    (dot_S2000x128_S128x384_S2000x384_1_0_0_1_n_n.lhsIdx i q 1).val = (q ⟨0, by decide⟩).val :=
  dot_S2000x128_S128x384_S2000x384_1_0_0_1_n_n.lhsIdx_val_of_single rfl i q

/-- Row axis of the right factor: the summation index. -/
theorem gate_rhs_row (i : S2000x384.Idx) (q : dot_S2000x128_S128x384_S2000x384_1_0_0_1_n_n.contr.Idx) :
    (dot_S2000x128_S128x384_S2000x384_1_0_0_1_n_n.rhsIdx i q 0).val = (q ⟨0, by decide⟩).val :=
  dot_S2000x128_S128x384_S2000x384_1_0_0_1_n_n.rhsIdx_val_of_single rfl i q

/-- Column axis of the right factor: the result's column. -/
theorem gate_rhs_col (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide), dif_pos (show (1 : Fin S128x384.rank) ∈ dot_S2000x128_S128x384_S2000x384_1_0_0_1_n_n.rhsNonContracting by decide)]
  rfl

/-- A [2000,128] × [128,384] product into the zero accumulator, at entry (p, c): Σₖ L(p,k) · R(k,c). -/
theorem gate_product_at {φ₁ φ₂ : FTy} (L : FVec Ideal S2000x128 φ₁) (R : FVec Ideal S128x384 φ₂) (p : Fin 2000) (c : Fin 384) :
    matmul dot_S2000x128_S128x384_S2000x384_1_0_0_1_n_n none L R (constant (F := Ideal) S2000x384 .f32 0x00000000#32) (ix2 p c)
      = ∑ k : Fin 128, L (ix2 p k) * R (ix2 k c) := by
  simp only [matmul]
  rw [Ideal.matmul_constant_zero_apply, ← Equiv.sum_comp (contrEquiv1 dot_S2000x128_S128x384_S2000x384_1_0_0_1_n_n 128 rfl rfl).symm]
  refine Finset.sum_congr rfl fun k _ => ?_
  have hk := contrEquiv1_symm_val dot_S2000x128_S128x384_S2000x384_1_0_0_1_n_n 128 rfl rfl k
  have el : dot_S2000x128_S128x384_S2000x384_1_0_0_1_n_n.lhsIdx (ix2 p c) ((contrEquiv1 dot_S2000x128_S128x384_S2000x384_1_0_0_1_n_n 128 rfl rfl).symm k) = ix2 p k := funext fun a => Fin.ext (by
    match a with
    | ⟨0, _⟩ => exact gate_lhs_row _ _
    | ⟨1, _⟩ => exact (gate_lhs_col _ _).trans hk)
  have er : dot_S2000x128_S128x384_S2000x384_1_0_0_1_n_n.rhsIdx (ix2 p c) ((contrEquiv1 dot_S2000x128_S128x384_S2000x384_1_0_0_1_n_n 128 rfl rfl).symm k) = ix2 k c := funext fun a => Fin.ext (by
    match a with
    | ⟨0, _⟩ => exact (gate_rhs_row _ _).trans hk
    | ⟨1, _⟩ => exact gate_rhs_col _ _)
  rw [el, er]

/-! ## The body's arithmetic at an entry -/

/-- The logistic of an array, entry by entry. -/
theorem logistic_at {s : Shape} {φ : FTy} (a : FVec Ideal s φ) (i : s.Idx) : logistic a i = Ideal.logistic (a i) := rfl

/-- The hyperbolic tangent of an array, entry by entry. -/
theorem tanh_at {s : Shape} {φ : FTy} (a : FVec Ideal s φ) (i : s.Idx) : tanh a i = Ideal.tanh (a i) := rfl

/-- A bias vector laid out as one row and repeated down the rows reads, at (p, c), the bias at c. -/
theorem bias_row_at {a b : Nat} (v : (⟨1, ![b]⟩ : Shape).Idx → EReal) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- Column block [o, o + 128) of a [2000,384] array, at (p, q), is the array at (p, o + q). -/
theorem gate_cols_at (o : Nat) (X : S2000x384.Idx → EReal) (h : S2000x384.Slices ![0, o] S2000x128) (p : Fin 2000) (q : Fin 128)
    (k : Fin 384) (hk : k.val = o + q.val) : extractStridedSlice S2000x128 ![0, o] X h (ix2 p q) = X (ix2 p k) :=
  slice2_axis1_apply o X h p q k hk

/-- The body's payload at (p, q) is the GRU cell's new state there, of the loaded blocks as arrays of 2000 rows. -/
theorem body_at (x a : Vec Ideal S2000x128 .f32) (wi wh : Vec Ideal S128x384 .f32) (bi : Vec Ideal S384 .f32)
    (bhn : Vec Ideal S128 .f32) (p : Fin 2000) (q : Fin 128) :
    k1_pay1 (F := Ideal) x a wi wh bi bhn (ix2 p q) = Cert.Spec.gruAt x a wi bi wh bhn p q := by
  unfold k1_pay1
  simp only [addf_apply, mulf_apply, subf_apply, logistic_at, tanh_at, broadcast_apply, shapeCast_self]
  simp only [slice2_axis1_eq, addf_apply, gate_product_at, bias_row_at, truncf_apply, Nat.zero_add, Ideal.ofBits_def]
  unfold Cert.Spec.gruAt Cert.Spec.cand Cert.Spec.gateZ Cert.Spec.gateR Cert.Spec.gi Cert.Spec.gh
  rw [Ideal.ofBits_one_f32]

/-! ## From the blocks to the array -/

theorem zeros2 : (![0, 0] : Fin 2 → Nat) = fun _ => 0 := funext fun a => by fin_cases a <;> rfl

theorem zeros1 : (![0] : Fin 1 → Nat) = fun _ => 0 := funext fun a => by fin_cases a <;> rfl

/-- What the body leaves in the output's buffer is its payload of the six loaded blocks (each loaded whole). -/
theorem out_eq (x0 x1 : Vec Ideal S2000x128 .f32) (x2 : Vec Ideal S128x384 .f32) (x3 : Vec Ideal S384 .f32)
    (x4 : Vec Ideal S128x384 .f32) (x5 : Vec Ideal S128 .f32) :
    out1_6 (F := Ideal) x0 x1 x2 x3 x4 x5 = k1_pay1 x0 x1 x2 x4 x3 x5 := by
  unfold out1_6
  rw [View.canon_unit_zero zeros2]
  simp only [View.ld_unit_zero (S := S2000x128) zeros2, View.ld_unit_zero (S := S128x384) zeros2,
    View.ld_unit_zero (S := S384) zeros1, View.ld_unit_zero (S := S128) zeros1]

/-- A block of rows of the result: if the row-indexed blocks x, a are the arrays X, A read through an index map e that
    shifts the row by a fixed amount and keeps the column, and the other four operands are the whole arrays, then the
    payload at j is the GRU function of the arrays at e j. -/
theorem block_rows (X A : S20000x128.Idx → EReal) (Wi Wh : S128x384.Idx → EReal) (Bi : S384.Idx → EReal) (Bhn : S128.Idx → EReal)
    (x a : S2000x128.Idx → EReal) (wi wh : S128x384.Idx → EReal) (bi : S384.Idx → EReal) (bhn : S128.Idx → EReal)
    (e : S2000x128.Idx → S20000x128.Idx) (o : Nat)
    (he0 : ∀ j, (e j 0).val = o + (j 0).val) (he1 : ∀ j, (e j 1).val = (j 1).val)
    (hx : ∀ j, x j = X (e j)) (ha : ∀ j, a j = A (e j))
    (hwi : wi = Wi) (hwh : wh = Wh) (hbi : bi = Bi) (hbhn : bhn = Bhn) (j : S2000x128.Idx) :
    k1_pay1 (F := Ideal) x a wi wh bi bhn j = Cert.Spec.gruFn X A Wi Bi Wh Bhn (e j) := by
  subst hwi hwh hbi hbhn
  obtain ⟨p, q, rfl⟩ : ∃ (p : Fin 2000) (q : Fin 128), j = ix2 p q := ⟨j 0, j 1, eq_ix2 j⟩
  rw [body_at]
  unfold Cert.Spec.gruFn
  have hq : (⟨(e (ix2 p q) 1).val, (e (ix2 p q) 1).isLt⟩ : Fin 128) = q := Fin.ext (he1 (ix2 p q))
  rw [hq]
  refine (Cert.Spec.gruAt_rows X A x a wi bi wh bhn ⟨(e (ix2 p q) 0).val, (e (ix2 p q) 0).isLt⟩ p (fun q' => ?_) (fun q' => ?_) q)
  · rw [hx]
    refine congrArg X (funext fun ax => Fin.ext ?_)
    match ax with
    | ⟨0, _⟩ => exact (he0 (ix2 p q')).trans (he0 (ix2 p q)).symm
    | ⟨1, _⟩ => exact he1 (ix2 p q')
  · rw [ha]
    refine congrArg A (funext fun ax => Fin.ext ?_)
    match ax with
    | ⟨0, _⟩ => exact (he0 (ix2 p q')).trans (he0 (ix2 p q)).symm
    | ⟨1, _⟩ => exact he1 (ix2 p q')

/-- The printed index maps over the grid: the two row-indexed inputs and the output move to block row t; the weights and
    biases stay at block 0. -/
theorem row_blocks : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- What grid point t writes back is block t of the GRU function of the arrays the region was entered with. -/
theorem flushed_eq (c : Dev nD) (t : Fin cfg1.N) :
    (dat1 (F := Ideal) V c).flushed 6 t = ((cfg1.win 6).blk t).view.read (Elt Ideal)
      (Cert.Spec.gruFn (V c main_arg0) (V c main_v5) (V c main_arg4) (V c main_arg5) (V c main_arg6) (V c main_arg7)) := by
  show (cfg1.win 6).cut (grid1.coords t) ((dat1 V c).after 6 t) = _
  rw [after1_6, out_eq]
  obtain ⟨e00, e01, e10, e11, e20, e21, e30, e40, e41, e50, e60, e61⟩ := row_blocks t
  funext j
  show k1_pay1 (F := Ideal) (iblk1 V c 0 t) (iblk1 V c 1 t) (iblk1 V c 2 t) (iblk1 V c 4 t) (iblk1 V c 3 t) (iblk1 V c 5 t) j
    = Cert.Spec.gruFn (V c main_arg0) (V c main_v5) (V c main_arg4) (V c main_arg5) (V c main_arg6) (V c main_arg7) (((cfg1.win 6).blk t).view.emb j)
  refine block_rows (V c main_arg0) (V c main_v5) (V c main_arg4) (V c main_arg6) (V c main_arg5) (V c main_arg7) _ _ _ _ _ _
    (((cfg1.win 6).blk t).view.emb) (t.val * 2000) (fun y => ?_) (fun y => ?_) (fun y => ?_) (fun y => ?_) ?_ ?_ ?_ ?_ j
  · show win1_6.index t (0 : Fin 2) * 2000 + 1 * (y 0).val = t.val * 2000 + (y 0).val
    omega
  · show win1_6.index t (1 : Fin 2) * 128 + 1 * (y 1).val = (y 1).val
    omega
  · show V c main_arg0 (((cfg1.win 0).blk t).view.emb y) = V c main_arg0 (((cfg1.win 6).blk t).view.emb y)
    refine congrArg _ (funext fun ax => Fin.ext ?_)
    match ax with
    | ⟨0, _⟩ => show win1_0.index t (0 : Fin 2) * 2000 + 1 * (y 0).val = win1_6.index t (0 : Fin 2) * 2000 + 1 * (y 0).val; omega
    | ⟨1, _⟩ => show win1_0.index t (1 : Fin 2) * 128 + 1 * (y 1).val = win1_6.index t (1 : Fin 2) * 128 + 1 * (y 1).val; omega
  · show V c main_v5 (((cfg1.win 1).blk t).view.emb y) = V c main_v5 (((cfg1.win 6).blk t).view.emb y)
    refine congrArg _ (funext fun ax => Fin.ext ?_)
    match ax with
    | ⟨0, _⟩ => show win1_1.index t (0 : Fin 2) * 2000 + 1 * (y 0).val = win1_6.index t (0 : Fin 2) * 2000 + 1 * (y 0).val; omega
    | ⟨1, _⟩ => show win1_1.index t (1 : Fin 2) * 128 + 1 * (y 1).val = win1_6.index t (1 : Fin 2) * 128 + 1 * (y 1).val; omega
  · funext y
    show V c main_arg4 (((cfg1.win 2).blk t).view.emb y) = V c main_arg4 y
    refine congrArg _ (funext fun ax => Fin.ext ?_)
    match ax with
    | ⟨0, _⟩ => show win1_2.index t (0 : Fin 2) * 128 + 1 * (y 0).val = (y 0).val; omega
    | ⟨1, _⟩ => show win1_2.index t (1 : Fin 2) * 384 + 1 * (y 1).val = (y 1).val; omega
  · funext y
    show V c main_arg6 (((cfg1.win 4).blk t).view.emb y) = V c main_arg6 y
    refine congrArg _ (funext fun ax => Fin.ext ?_)
    match ax with
    | ⟨0, _⟩ => show win1_4.index t (0 : Fin 2) * 128 + 1 * (y 0).val = (y 0).val; omega
    | ⟨1, _⟩ => show win1_4.index t (1 : Fin 2) * 384 + 1 * (y 1).val = (y 1).val; omega
  · funext y
    show V c main_arg5 (((cfg1.win 3).blk t).view.emb y) = V c main_arg5 y
    refine congrArg _ (funext fun ax => Fin.ext ?_)
    match ax with
    | ⟨0, _⟩ => show win1_3.index t (0 : Fin 1) * 384 + 1 * (y 0).val = (y 0).val; omega
  · funext y
    show V c main_arg7 (((cfg1.win 5).blk t).view.emb y) = V c main_arg7 y
    refine congrArg _ (funext fun ax => Fin.ext ?_)
    match ax with
    | ⟨0, _⟩ => show win1_5.index t (0 : Fin 1) * 128 + 1 * (y 0).val = (y 0).val; omega

/-- An index of the array is in point t's block iff each coordinate is in the block's range on its axis. -/
theorem mem_blk (t : Fin cfg1.N) (i : S20000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v6).slice (win1_6.rect t)).set ↔ _
  rw [View.set_slice_whole, Rect.mem_set_unit]
  exact Iff.rfl

/-- Every row r of the array lies in the block of grid point r / 2000, and every point writes its block back. -/
theorem rows_covered (i : S20000x128.Idx) :
    ∃ t : Fin cfg1.N, (cfg1.win 6).flush t = true ∧ i ∈ ((cfg1.win 6).blk t).view.set := by
  have hi0 : (i 0).val < 20000 := (i 0).isLt
  have hi1 : (i 1).val < 128 := (i 1).isLt
  have hN : grid1.N = 10 := N_1
  have ht : (i 0).val / 2000 < grid1.N := by rw [hN]; omega
  obtain ⟨-, -, -, -, -, -, -, -, -, -, e60, e61⟩ := row_blocks ⟨(i 0).val / 2000, ht⟩
  refine ⟨⟨(i 0).val / 2000, ht⟩, flush1_6 _, ?_⟩
  rw [mem_blk]
  intro a
  match a with
  | ⟨0, _⟩ =>
    show win1_6.index ⟨(i 0).val / 2000, ht⟩ (0 : Fin 2) * 2000 ≤ (i 0).val ∧ (i 0).val < win1_6.index ⟨(i 0).val / 2000, ht⟩ (0 : Fin 2) * 2000 + 2000
    rw [e60]
    show (i 0).val / 2000 * 2000 ≤ (i 0).val ∧ (i 0).val < (i 0).val / 2000 * 2000 + 2000
    omega
  | ⟨1, _⟩ =>
    show win1_6.index ⟨(i 0).val / 2000, ht⟩ (1 : Fin 2) * 128 ≤ (i 1).val ∧ (i 1).val < win1_6.index ⟨(i 0).val / 2000, ht⟩ (1 : Fin 2) * 128 + 128
    rw [e61]
    omega

/-- The new-node array after the second kernel's 10 grid points: the GRU function of the arrays the region was entered
    with (the node features, the aggregated messages, the gate weights and biases). -/
theorem newNodes (c : Dev nD) :
    (dat1 (F := Ideal) V c).arrAt 6 cfg1.N
      = Cert.Spec.gruFn (V c main_arg0) (V c main_v5) (V c main_arg4) (V c main_arg5) (V c main_arg6) (V c main_arg7) :=
  (dat1 (F := Ideal) V c).arrAt_eq_of_cover 6 _ (fun t _ => flushed_eq V c t) rows_covered

end Cert.KernelIdeal.Node

end
-- ==== Proof.TakeRows.lean ====
/-
  Row lookup with an out-of-range fill, on in-range indices.

  The kernel's program looks node rows up with `jnp.take`: a negative index is wrapped once by the row count, and a row
  whose wrapped index is outside [0, 19999] is filled with a not-a-number pattern.  The reference indexes the array
  directly: the same wrap, then a gather whose start index is clamped.  On indices in [0, 20000) the wrap changes
  nothing, the range test is true in every row, and the two lookups are the same gather of the same start indices.
-/
import proofs.«429358_j88811333747467_1_alg».proof.Proof.Gen.KernelIdeal
import proofs.«429358_j88811333747467_1_alg».proof.Proof.Gen.ReferenceIdeal.Read
import Idealize.ShloMosaic.Lib.StableHlo.Predicate
import Idealize.ShloMosaic.Lib.ValueIdx
import Idealize.ShloMosaic.PureOps.Reduce

set_option maxRecDepth 16384

noncomputable section

namespace Cert.KernelIdeal.Take

open Cert.KernelIdeal Cert.KernelIdeal.Facts₀ Cert.KernelIdeal.Facts
open Idealize.ShloMosaic Idealize.ShloMosaic.ValueIdx Idealize.SL.Sem

variable {F : FTy → Type} [FloatOps F]

/-- The start indices, as a column: an index below zero moved up by the row count, any other as it is. -/
def wrapped (idx : IVec S640000 32) : IVec S640000x1 32 :=
  broadcastInDim S640000x1 ![0] bcast_S640000_S640000x1_0
    (select (cmpi .slt idx (broadcastInDim S640000 ![] bcast_S_S640000 (constantI S_ 32 0#32)))
      (addi idx (broadcastInDim S640000 ![] bcast_S_S640000 (constantI S_ 32 20000#32))) idx)

/-- The range test 0 ≤ wrapped ≤ 19999 of each row, laid over the row's 128 columns. -/
def inRange (idx : IVec S640000 32) : IVec S640000x128 1 :=
  broadcastInDim S640000x128 ![0] bcast_S640000_S640000x128_0
    (Host.reduce IntOp.andi
      (andi (cmpi .sge (wrapped idx) (broadcastInDim S640000x1 ![] bcast_S_S640000x1 (constantI S_ 32 0#32)))
        (cmpi .sle (wrapped idx) (broadcastInDim S640000x1 ![0, 1] bcast_S1x1_S640000x1_0_1
          (broadcastInDim S1x1 ![1] bcast_S1_S1x1_1 (constantI S1 32 19999#32)))))
      (constantI S_ 1 1#1) reducesTo_S640000x1_S640000_d1 h_S_)

/-- The looked-up rows: the gathered row where the range test holds, the fill elsewhere. -/
def takeRows (x : FVec F S20000x128 .f32) (idx : IVec S640000 32) : FVec F S640000x128 .f32 :=
  select (inRange idx) (Host.gather gather_S20000x128_S640000x1_S640000x128_1_0_n_n_0_1_1128 x (wrapped idx))
    (broadcastInDim S640000x128 ![] bcast_S_S640000x128 (constant S_ .f32 0x7FC00000#32))

/-- A reduction by `and` of all-ones from one is one. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  generalize (((List.finRange s.numel).map s.rowMajor.symm).filter fun i => h.drop i = j) = l
  induction l with
  | nil => rfl
  | cons a l ih => rw [List.foldl_cons, hx a]; exact ih

/-- A word below 20000 is not signed-negative, … -/
theorem not_neg (w : BitVec 32) (h : w.toNat < 20000) : IntOp.cmpi .slt w (0#32) = 0#1 := by
  apply eq_zero_of_ne_one
  rw [StableHlo.Predicate.slt_iff_toNat (by omega) (by decide)]
  simp

/-- … is signed-nonnegative … -/
theorem ge_zero (w : BitVec 32) (h : w.toNat < 20000) : IntOp.cmpi .sge w (0#32) = 1#1 := by
  rw [StableHlo.Predicate.sge_iff_toNat (by omega) (by decide)]
  simp

/-- … and signed-at-most 19999. -/
theorem le_last (w : BitVec 32) (h : w.toNat < 20000) : IntOp.cmpi .sle w (19999#32) = 1#1 := by
  rw [StableHlo.Predicate.sle_iff_toNat (by omega) (by decide)]
  show w.toNat ≤ 19999
  omega

/-- On in-range indices the wrapped column reads the index itself. -/
theorem wrapped_apply (idx : IVec S640000 32) (h : ∀ i, (idx i).toNat < 20000) (i : S640000x1.Idx) :
    (wrapped idx i).toNat < 20000 := by
  unfold wrapped
  simp only [broadcastInDim]
  rw [select_apply]
  show BitVec.toNat (Scalar.select (IntOp.cmpi .slt (idx _) (0#32)) _ _) < 20000
  rw [not_neg _ (h _), select_zero]
  exact h _

/-- On in-range indices the range test holds everywhere. -/
theorem inRange_ones (idx : IVec S640000 32) (h : ∀ i, (idx i).toNat < 20000) : inRange idx = fun _ => 1#1 := by
  funext i
  unfold inRange
  simp only [broadcastInDim]
  refine reduce_andi_ones _ _ _ _ (fun k => ?_) (fun _ => rfl) _
  show IntOp.andi (IntOp.cmpi .sge (wrapped idx k) (0#32)) (IntOp.cmpi .sle (wrapped idx k) (19999#32)) = 1#1
  rw [ge_zero _ (wrapped_apply idx h k), le_last _ (wrapped_apply idx h k)]
  rfl

/-- On in-range indices the looked-up rows are the gathered rows. -/
theorem takeRows_eq (x : FVec F S20000x128 .f32) (idx : IVec S640000 32) (h : ∀ i, (idx i).toNat < 20000) :
    takeRows x idx = Host.gather gather_S20000x128_S640000x1_S640000x128_1_0_n_n_0_1_1128 x (wrapped idx) := by
  unfold takeRows
  rw [inRange_ones idx h]
  funext i
  rw [select_apply, select_one]

/-- … which are the reference's first gather (by the senders) … -/
theorem takeRows_eq_v6 (x : FVec Ideal S20000x128 .f32) (idx : IVec S640000 32) (h : ∀ i, (idx i).toNat < 20000) :
    takeRows x idx = Cert.ReferenceIdeal.Read.val_main_v6 (F := Ideal) x idx := by
  rw [takeRows_eq x idx h]
  unfold wrapped Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_v1
    Cert.ReferenceIdeal.Read.val_main_v0 Cert.ReferenceIdeal.Read.val_main_c Cert.ReferenceIdeal.Read.val_main_c_0
  rfl

/-- … and its second (by the receivers). -/
theorem takeRows_eq_v13 (x : FVec Ideal S20000x128 .f32) (idx : IVec S640000 32) (h : ∀ i, (idx i).toNat < 20000) :
    takeRows x idx = Cert.ReferenceIdeal.Read.val_main_v13 (F := Ideal) x idx := by
  rw [takeRows_eq x idx h]
  unfold wrapped Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_c_1 Cert.ReferenceIdeal.Read.val_main_c_2
  rfl

end Cert.KernelIdeal.Take

end
-- ==== Proof.IndexRange.lean ====
/-
  The index range the precondition states, decoded: every sender and every receiver is a node number, 0 ≤ · < 20000.

  The printed predicate is a conjunction of `jnp.all`s; its last two conjuncts compare every entry of the two index arrays,
  signed, with 0 from below and with 20000 from above.  A 32-bit word that is signed-nonnegative and signed-below 20000
  has unsigned value below 20000.
-/
import proofs.«429358_j88811333747467_1_alg».proof.Defs
import proofs.«429358_j88811333747467_1_alg».proof.Proof.Gen.Pre_finite_inputs
import Idealize.ShloMosaic.Lib.ReduceAll
import Idealize.ShloMosaic.Lib.StableHlo.Predicate
import Idealize.ShloMosaic.Lib.ValueIdx

set_option maxRecDepth 16384

noncomputable section

namespace Cert.IndexRange

open Idealize.ShloMosaic Idealize.ShloMosaic.ValueIdx Idealize.SL.Sem

instance : Subsingleton (⟨0, ![]⟩ : Shape).Idx := ⟨fun a b => funext fun d => d.elim0⟩

/-- A word that is signed-nonnegative and signed-below 20000 is, unsigned, below 20000. -/
theorem toNat_lt (w : BitVec 32) (h0 : IntOp.cmpi .sge w (0#32) = 1#1) (h1 : IntOp.cmpi .slt w (20000#32) = 1#1) :
    w.toNat < 20000 := by
  unfold IntOp.cmpi at h0 h1
  rw [StableHlo.Predicate.ofBool_eq_one_iff] at h0 h1
  simp only [BitVec.slt, BitVec.sle, decide_eq_true_eq] at h0 h1
  have h32 := w.isLt
  unfold BitVec.toInt at h0 h1
  split at h1 <;> simp at h0 h1 <;> omega

variable [hP : Cert.Pre_finite_inputs.Facts]

/-- What the precondition says of the two index arrays, entry by entry. -/
theorem of_pre (x0 : FVec Ideal Cert.Pre_finite_inputs.S20000x128 .f32) (x1 : FVec Ideal Cert.Pre_finite_inputs.S640000x128 .f32)
    (x2 : FVec Ideal Cert.Pre_finite_inputs.S384x128 .f32) (x3 : FVec Ideal Cert.Pre_finite_inputs.S128 .f32)
    (x4 : FVec Ideal Cert.Pre_finite_inputs.S128x384 .f32) (x5 : FVec Ideal Cert.Pre_finite_inputs.S384 .f32)
    (x6 : FVec Ideal Cert.Pre_finite_inputs.S128x384 .f32) (x7 : FVec Ideal Cert.Pre_finite_inputs.S128 .f32)
    (x8 x9 : IVec Cert.Pre_finite_inputs.S640000 32)
    (h : Cert.Pre_finite_inputs.fn (F := Ideal) x0 x1 x2 x3 x4 x5 x6 x7 x8 x9 = fun _ => 1#1) :
    (∀ i, (x8 i).toNat < 20000) ∧ (∀ i, (x9 i).toNat < 20000) := by
  have e := congrFun h ix0
  unfold Cert.Pre_finite_inputs.fn Cert.Pre_finite_inputs.fn_part1 Cert.Pre_finite_inputs.fn_part2 Cert.Pre_finite_inputs.fn_part3 at e
  dsimp only at e
  obtain ⟨e1, h9⟩ := IntOp.andi_eq_one.1 e
  obtain ⟨-, h8⟩ := IntOp.andi_eq_one.1 e1
  refine ⟨fun i => ?_, fun i => ?_⟩
  · obtain ⟨a, b⟩ := IntOp.andi_eq_one.1 (Host.reduce_andi_all _ _ _ _ _ h8 i)
    exact toNat_lt _ a b
  · obtain ⟨a, b⟩ := IntOp.andi_eq_one.1 (Host.reduce_andi_all _ _ _ _ _ h9 i)
    exact toNat_lt _ a b

end Cert.IndexRange

end
-- ==== Proof.Boundary.lean ====
/-
  The contents of the kernel program's buffers at the boundaries of its two launches, as functions of the arguments.

  Before the first launch the host looks the sender rows and the receiver rows up; the first launch then fills the message
  array; the host sums the messages into their receiving nodes; the second launch fills the new-node array.  Each
  boundary's contents are read back through the host operations (the operations' composed term) and through the launches
  (the value of each output array), down to the launch memory.
-/
import proofs.«429358_j88811333747467_1_alg».proof.Proof.Gen.KernelIdeal.Frame
import proofs.«429358_j88811333747467_1_alg».proof.Proof.KernelRun
import proofs.«429358_j88811333747467_1_alg».proof.Proof.Spec
import proofs.«429358_j88811333747467_1_alg».proof.Proof.TakeRows
import Idealize.ShloMosaic.Lib.StableHlo.Run

set_option maxRecDepth 16384

noncomputable section

namespace Cert.KernelIdeal.Boundary

open Cert.KernelIdeal Cert.KernelIdeal.Gen
open Idealize.ShloMosaic Idealize.ShloMosaic.TcCoe Idealize.SL.Sem Idealize.ShloMosaic.StableHlo
open Idealize.ShloMosaic.Pipeline (Dat Cfg Window)

/-! ## The host operations, read back -/

set_option maxHeartbeats 8000000 in
/-- The first lookup leaves the rows of the node array at the senders. -/
theorem lookup_senders (W : Valuation τ sig (Elt Ideal)) :
    StableHlo.after (hostOps0 (F := Ideal)) W (Proc.devRef .tc main_v0)
      = Take.takeRows (F := Ideal) (W (Proc.devRef .tc main_arg0)) (W (Proc.devRef .tc main_arg8)) := by
  after_results_simp
  simp only [TRef.toBuf, TRef.ofBuf, cast_cast, cast_eq]
  unfold Take.takeRows Take.inRange Take.wrapped
  rfl

set_option maxHeartbeats 8000000 in
/-- The second lookup leaves the rows of the node array at the receivers. -/
theorem lookup_receivers (W : Valuation τ sig (Elt Ideal)) :
    StableHlo.after (hostOps0_1 (F := Ideal)) W (Proc.devRef .tc main_v1)
      = Take.takeRows (F := Ideal) (W (Proc.devRef .tc main_arg0)) (W (Proc.devRef .tc main_arg9)) := by
  after_results_simp
  simp only [TRef.toBuf, TRef.ofBuf, cast_cast, cast_eq]
  unfold Take.takeRows Take.inRange Take.wrapped
  rfl

/-- The aggregation leaves the sums of the message rows by receiving node. -/
theorem aggregate (W : Valuation τ sig (Elt Ideal)) :
    StableHlo.after (hostOps1 (F := Ideal)) W (Proc.devRef .tc main_v5)
      = Host.scatterAdd (F := Ideal) scatter_S20000x128_S640000x1_S640000x128_1_0_0_1
          (broadcastInDim S20000x128 ![] bcast_S_S20000x128 (constant S_ .f32 0x00000000#32))
          (broadcastInDim S640000x1 ![0] bcast_S640000_S640000x1_0 (W (Proc.devRef .tc main_arg9)))
          (W (Proc.devRef .tc main_v2)) := by
  after_results

/-! ## What the host operations leave alone -/

theorem keep0_main_arg0 (W : Valuation τ sig (Elt Ideal)) :
    StableHlo.after (hostOps0 (F := Ideal)) W (Proc.devRef .tc main_arg0) = W (Proc.devRef .tc main_arg0) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_main_arg1 (W : Valuation τ sig (Elt Ideal)) :
    StableHlo.after (hostOps0 (F := Ideal)) W (Proc.devRef .tc main_arg1) = W (Proc.devRef .tc main_arg1) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_main_arg2 (W : Valuation τ sig (Elt Ideal)) :
    StableHlo.after (hostOps0 (F := Ideal)) W (Proc.devRef .tc main_arg2) = W (Proc.devRef .tc main_arg2) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_main_arg3 (W : Valuation τ sig (Elt Ideal)) :
    StableHlo.after (hostOps0 (F := Ideal)) W (Proc.devRef .tc main_arg3) = W (Proc.devRef .tc main_arg3) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_main_arg8 (W : Valuation τ sig (Elt Ideal)) :
    StableHlo.after (hostOps0 (F := Ideal)) W (Proc.devRef .tc main_arg8) = W (Proc.devRef .tc main_arg8) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_main_arg9 (W : Valuation τ sig (Elt Ideal)) :
    StableHlo.after (hostOps0 (F := Ideal)) W (Proc.devRef .tc main_arg9) = W (Proc.devRef .tc main_arg9) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep01_main_v0 (W : Valuation τ sig (Elt Ideal)) :
    StableHlo.after (hostOps0_1 (F := Ideal)) W (Proc.devRef .tc main_v0) = W (Proc.devRef .tc main_v0) :=
  StableHlo.after_of_forall_not_mem _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep01_main_arg0 (W : Valuation τ sig (Elt Ideal)) :
    StableHlo.after (hostOps0_1 (F := Ideal)) W (Proc.devRef .tc main_arg0) = W (Proc.devRef .tc main_arg0) :=
  StableHlo.after_of_forall_not_mem _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep01_main_arg1 (W : Valuation τ sig (Elt Ideal)) :
    StableHlo.after (hostOps0_1 (F := Ideal)) W (Proc.devRef .tc main_arg1) = W (Proc.devRef .tc main_arg1) :=
  StableHlo.after_of_forall_not_mem _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep01_main_arg2 (W : Valuation τ sig (Elt Ideal)) :
    StableHlo.after (hostOps0_1 (F := Ideal)) W (Proc.devRef .tc main_arg2) = W (Proc.devRef .tc main_arg2) :=
  StableHlo.after_of_forall_not_mem _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep01_main_arg3 (W : Valuation τ sig (Elt Ideal)) :
    StableHlo.after (hostOps0_1 (F := Ideal)) W (Proc.devRef .tc main_arg3) = W (Proc.devRef .tc main_arg3) :=
  StableHlo.after_of_forall_not_mem _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep01_main_arg9 (W : Valuation τ sig (Elt Ideal)) :
    StableHlo.after (hostOps0_1 (F := Ideal)) W (Proc.devRef .tc main_arg9) = W (Proc.devRef .tc main_arg9) :=
  StableHlo.after_of_forall_not_mem _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_main_v2 (W : Valuation τ sig (Elt Ideal)) :
    StableHlo.after (hostOps1 (F := Ideal)) W (Proc.devRef .tc main_v2) = W (Proc.devRef .tc main_v2) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The boundaries' contents -/

section Run

variable (m : (ℓ : Loc nD τ sig) → Buf (Elt Ideal) ℓ) (ρ : Dev nD → PrngReg)

/-- When the first launch is entered the sender rows are looked up … -/
theorem entry0_senders (c : Dev nD) :
    V2 m ρ c main_v0 = Take.takeRows (F := Ideal) (m ((c : Thread nD τ).loc main_arg0)) (m ((c : Thread nD τ).loc main_arg8)) := by
  show StableHlo.after (hostOps0_1 (F := Ideal)) (W1 m ρ c) (Proc.devRef .tc main_v0) = _
  rw [keep01_main_v0]
  show StableHlo.after (hostOps0 (F := Ideal)) (W0 m ρ c) (Proc.devRef .tc main_v0) = _
  rw [lookup_senders]

/-- … and so are the receiver rows; … -/
theorem entry0_receivers (c : Dev nD) :
    V2 m ρ c main_v1 = Take.takeRows (F := Ideal) (m ((c : Thread nD τ).loc main_arg0)) (m ((c : Thread nD τ).loc main_arg9)) := by
  show StableHlo.after (hostOps0_1 (F := Ideal)) (W1 m ρ c) (Proc.devRef .tc main_v1) = _
  rw [lookup_receivers]
  show Take.takeRows (F := Ideal) (StableHlo.after (hostOps0 (F := Ideal)) (W0 m ρ c) (Proc.devRef .tc main_arg0))
      (StableHlo.after (hostOps0 (F := Ideal)) (W0 m ρ c) (Proc.devRef .tc main_arg9)) = _
  rw [keep0_main_arg0, keep0_main_arg9]

/-- … the edge features, the weights and the bias are as launched. -/
theorem entry0_arg1 (c : Dev nD) : V2 m ρ c main_arg1 = m ((c : Thread nD τ).loc main_arg1) := by
  show StableHlo.after (hostOps0_1 (F := Ideal)) (W1 m ρ c) (Proc.devRef .tc main_arg1) = _
  rw [keep01_main_arg1]
  show StableHlo.after (hostOps0 (F := Ideal)) (W0 m ρ c) (Proc.devRef .tc main_arg1) = _
  rw [keep0_main_arg1]
theorem entry0_arg2 (c : Dev nD) : V2 m ρ c main_arg2 = m ((c : Thread nD τ).loc main_arg2) := by
  show StableHlo.after (hostOps0_1 (F := Ideal)) (W1 m ρ c) (Proc.devRef .tc main_arg2) = _
  rw [keep01_main_arg2]
  show StableHlo.after (hostOps0 (F := Ideal)) (W0 m ρ c) (Proc.devRef .tc main_arg2) = _
  rw [keep0_main_arg2]
theorem entry0_arg3 (c : Dev nD) : V2 m ρ c main_arg3 = m ((c : Thread nD τ).loc main_arg3) := by
  show StableHlo.after (hostOps0_1 (F := Ideal)) (W1 m ρ c) (Proc.devRef .tc main_arg3) = _
  rw [keep01_main_arg3]
  show StableHlo.after (hostOps0 (F := Ideal)) (W0 m ρ c) (Proc.devRef .tc main_arg3) = _
  rw [keep0_main_arg3]

/-- The receivers are as launched when the first launch is left. -/
theorem exit0_arg9 (c : Dev nD) : W3 m ρ c (Proc.devRef .tc main_arg9) = m ((c : Thread nD τ).loc main_arg9) := by
  rw [W3_of_ne m ρ c main_arg9 (by decide)]
  show StableHlo.after (hostOps0_1 (F := Ideal)) (W1 m ρ c) (Proc.devRef .tc main_arg9) = _
  rw [keep01_main_arg9]
  show StableHlo.after (hostOps0 (F := Ideal)) (W0 m ρ c) (Proc.devRef .tc main_arg9) = _
  rw [keep0_main_arg9]

/- What each launch leaves in its output array, as a function of the contents it was entered with: the two facts the
   boundaries' contents are read through. -/
variable
  (hEdge : ∀ (V : (c : Dev nD) → (b : Ref sig .tc) → Buf (Elt Ideal) ((c : Thread nD τ).loc b)) (c : Dev nD),
    (dat0 (F := Ideal) V c).arrAt 5 cfg0.N
      = Cert.Spec.msgFn (V c main_v0) (V c main_v1) (V c main_arg1) (V c main_arg2) (V c main_arg3))
  (hNode : ∀ (V : (c : Dev nD) → (b : Ref sig .tc) → Buf (Elt Ideal) ((c : Thread nD τ).loc b)) (c : Dev nD),
    (dat1 (F := Ideal) V c).arrAt 6 cfg1.N
      = Cert.Spec.gruFn (V c main_arg0) (V c main_v5) (V c main_arg4) (V c main_arg5) (V c main_arg6) (V c main_arg7))

include hEdge in
/-- When the first launch is left the message array holds the messages of the looked-up rows. -/
theorem exit0_messages (c : Dev nD) :
    W3 m ρ c (Proc.devRef .tc main_v2) = (Cert.Spec.msgFn (Take.takeRows (F := Ideal) (m ((c : Thread nD τ).loc main_arg0)) (m ((c : Thread nD τ).loc main_arg8))) (Take.takeRows (F := Ideal) (m ((c : Thread nD τ).loc main_arg0)) (m ((c : Thread nD τ).loc main_arg9))) (m ((c : Thread nD τ).loc main_arg1)) (m ((c : Thread nD τ).loc main_arg2)) (m ((c : Thread nD τ).loc main_arg3))) := by
  have h := hEdge (V2 m ρ) c
  rw [entry0_senders, entry0_receivers, entry0_arg1, entry0_arg2, entry0_arg3] at h
  exact (W3_arr m ρ c 5).trans h

include hEdge in
/-- When the second launch is entered the aggregated array holds the messages summed by receiving node; … -/
theorem entry1_aggregated (c : Dev nD) :
    V4 m ρ c main_v5 = (Host.scatterAdd (F := Ideal) scatter_S20000x128_S640000x1_S640000x128_1_0_0_1
        (broadcastInDim S20000x128 ![] bcast_S_S20000x128 (constant S_ .f32 0x00000000#32))
        (broadcastInDim S640000x1 ![0] bcast_S640000_S640000x1_0 (m ((c : Thread nD τ).loc main_arg9)))
        (Cert.Spec.msgFn (Take.takeRows (F := Ideal) (m ((c : Thread nD τ).loc main_arg0)) (m ((c : Thread nD τ).loc main_arg8))) (Take.takeRows (F := Ideal) (m ((c : Thread nD τ).loc main_arg0)) (m ((c : Thread nD τ).loc main_arg9))) (m ((c : Thread nD τ).loc main_arg1)) (m ((c : Thread nD τ).loc main_arg2)) (m ((c : Thread nD τ).loc main_arg3)))) := by
  show StableHlo.after (hostOps1 (F := Ideal)) (W3 m ρ c) (Proc.devRef .tc main_v5) = _
  rw [aggregate, exit0_arg9, exit0_messages m ρ hEdge]

/-- … the node features, the gate weights and the biases are as launched. -/
theorem entry1_arg0 (c : Dev nD) : V4 m ρ c main_arg0 = m ((c : Thread nD τ).loc main_arg0) :=
  ((W5_arr m ρ c 0).trans (((dat1 (V4 m ρ) c).arrAt_in 0 rfl _).trans (A_eq1 (V4 m ρ) c 0))).symm.trans (W5_main_arg0 m ρ c)
theorem entry1_arg4 (c : Dev nD) : V4 m ρ c main_arg4 = m ((c : Thread nD τ).loc main_arg4) :=
  ((W5_arr m ρ c 2).trans (((dat1 (V4 m ρ) c).arrAt_in 2 rfl _).trans (A_eq1 (V4 m ρ) c 2))).symm.trans (W5_main_arg4 m ρ c)
theorem entry1_arg5 (c : Dev nD) : V4 m ρ c main_arg5 = m ((c : Thread nD τ).loc main_arg5) :=
  ((W5_arr m ρ c 3).trans (((dat1 (V4 m ρ) c).arrAt_in 3 rfl _).trans (A_eq1 (V4 m ρ) c 3))).symm.trans (W5_main_arg5 m ρ c)
theorem entry1_arg6 (c : Dev nD) : V4 m ρ c main_arg6 = m ((c : Thread nD τ).loc main_arg6) :=
  ((W5_arr m ρ c 4).trans (((dat1 (V4 m ρ) c).arrAt_in 4 rfl _).trans (A_eq1 (V4 m ρ) c 4))).symm.trans (W5_main_arg6 m ρ c)
theorem entry1_arg7 (c : Dev nD) : V4 m ρ c main_arg7 = m ((c : Thread nD τ).loc main_arg7) :=
  ((W5_arr m ρ c 5).trans (((dat1 (V4 m ρ) c).arrAt_in 5 rfl _).trans (A_eq1 (V4 m ρ) c 5))).symm.trans (W5_main_arg7 m ρ c)

include hEdge hNode in
/-- At the end the new-node array holds the GRU update of the node features by the aggregated messages, … -/
theorem final_nodes (c : Dev nD) :
    W5 m ρ c (Proc.devRef .tc main_v6) = (Cert.Spec.gruFn (m ((c : Thread nD τ).loc main_arg0)) (Host.scatterAdd (F := Ideal) scatter_S20000x128_S640000x1_S640000x128_1_0_0_1
        (broadcastInDim S20000x128 ![] bcast_S_S20000x128 (constant S_ .f32 0x00000000#32))
        (broadcastInDim S640000x1 ![0] bcast_S640000_S640000x1_0 (m ((c : Thread nD τ).loc main_arg9)))
        (Cert.Spec.msgFn (Take.takeRows (F := Ideal) (m ((c : Thread nD τ).loc main_arg0)) (m ((c : Thread nD τ).loc main_arg8))) (Take.takeRows (F := Ideal) (m ((c : Thread nD τ).loc main_arg0)) (m ((c : Thread nD τ).loc main_arg9))) (m ((c : Thread nD τ).loc main_arg1)) (m ((c : Thread nD τ).loc main_arg2)) (m ((c : Thread nD τ).loc main_arg3)))) (m ((c : Thread nD τ).loc main_arg4)) (m ((c : Thread nD τ).loc main_arg5)) (m ((c : Thread nD τ).loc main_arg6)) (m ((c : Thread nD τ).loc main_arg7))) := by
  have h := hNode (V4 m ρ) c
  rw [entry1_arg0, entry1_aggregated m ρ hEdge, entry1_arg4, entry1_arg5, entry1_arg6, entry1_arg7] at h
  exact (W5_arr m ρ c 6).trans h

include hEdge in
/-- … and the message array still holds the messages. -/
theorem final_messages (c : Dev nD) :
    W5 m ρ c (Proc.devRef .tc main_v2) = (Cert.Spec.msgFn (Take.takeRows (F := Ideal) (m ((c : Thread nD τ).loc main_arg0)) (m ((c : Thread nD τ).loc main_arg8))) (Take.takeRows (F := Ideal) (m ((c : Thread nD τ).loc main_arg0)) (m ((c : Thread nD τ).loc main_arg9))) (m ((c : Thread nD τ).loc main_arg1)) (m ((c : Thread nD τ).loc main_arg2)) (m ((c : Thread nD τ).loc main_arg3))) := by
  rw [W5_of_ne m ρ c main_v2 (by decide)]
  show StableHlo.after (hostOps1 (F := Ideal)) (W3 m ρ c) (Proc.devRef .tc main_v2) = _
  rw [keep1_main_v2, exit0_messages m ρ hEdge]

include hEdge hNode in
/-- THE KERNEL PROGRAM'S RUN, its two results as functions of the arguments. -/
theorem run : θ_run defs (onTc (τ := τ) (main (F := Ideal))) ⟨m, fun _ => 0, ρ⟩ (fun r => ∀ c : Dev nD,
      r.2.mem ((c.tc : Thread nD τ).loc main_v6) = (Cert.Spec.gruFn (m ((c : Thread nD τ).loc main_arg0)) (Host.scatterAdd (F := Ideal) scatter_S20000x128_S640000x1_S640000x128_1_0_0_1
        (broadcastInDim S20000x128 ![] bcast_S_S20000x128 (constant S_ .f32 0x00000000#32))
        (broadcastInDim S640000x1 ![0] bcast_S640000_S640000x1_0 (m ((c : Thread nD τ).loc main_arg9)))
        (Cert.Spec.msgFn (Take.takeRows (F := Ideal) (m ((c : Thread nD τ).loc main_arg0)) (m ((c : Thread nD τ).loc main_arg8))) (Take.takeRows (F := Ideal) (m ((c : Thread nD τ).loc main_arg0)) (m ((c : Thread nD τ).loc main_arg9))) (m ((c : Thread nD τ).loc main_arg1)) (m ((c : Thread nD τ).loc main_arg2)) (m ((c : Thread nD τ).loc main_arg3)))) (m ((c : Thread nD τ).loc main_arg4)) (m ((c : Thread nD τ).loc main_arg5)) (m ((c : Thread nD τ).loc main_arg6)) (m ((c : Thread nD τ).loc main_arg7)))
      ∧ r.2.mem ((c.tc : Thread nD τ).loc main_v2) = (Cert.Spec.msgFn (Take.takeRows (F := Ideal) (m ((c : Thread nD τ).loc main_arg0)) (m ((c : Thread nD τ).loc main_arg8))) (Take.takeRows (F := Ideal) (m ((c : Thread nD τ).loc main_arg0)) (m ((c : Thread nD τ).loc main_arg9))) (m ((c : Thread nD τ).loc main_arg1)) (m ((c : Thread nD τ).loc main_arg2)) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (final_nodes m ρ hEdge hNode c),
      (h c).2.1.trans (final_messages m ρ hEdge c), (h c).2.2⟩) (run_results m ρ)

end Run

end Cert.KernelIdeal.Boundary

end
-- ==== Proof.RefClosed.lean ====
/-
  The reference's two results, index by index.

  The reference gathers the endpoint rows, concatenates them with the edge features along the columns, multiplies by the
  weight matrix, adds the bias and clips at zero: the message function of the two gathered arrays.  It then sums the
  messages into their receiving nodes and applies the GRU cell with the sums as input and the node features as state:
  the GRU function of the node features and of the aggregated array.  Both are read off the run one operation at a time.
-/
import proofs.«429358_j88811333747467_1_alg».proof.Proof.Gen.ReferenceIdeal.Read
import proofs.«429358_j88811333747467_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.ReferenceIdeal.Closed

open Cert.ReferenceIdeal Cert.ReferenceIdeal.Gen Cert.ReferenceIdeal.Read
open Idealize.ShloMosaic Idealize.ShloMosaic.TcCoe Idealize.ShloMosaic.ValueIdx Idealize.SL.Sem

/-! ## The messages -/

/-- The concatenation [sent | received | edge features] at row n, column k is the three-way case split of the
    specification. -/
theorem cat_at (s r e : (⟨S640000x128, .f32⟩ : BufTy).Contents (Elt Ideal)) (n : Fin 640000) (k : Fin 384) :
    concatenate S640000x384 1 [⟨S640000x128, s⟩, ⟨S640000x128, r⟩, ⟨S640000x128, e⟩]
        concatenates_S640000x128_S640000x128_S640000x128_S640000x384_d1 (ix2 n k)
      = Cert.Spec.cat3 s r e n k := by
  unfold Cert.Spec.cat3
  split
  · rename_i h
    exact concatenate_apply_piece 1 _ _ (ix2 n k) 0 (by simp) S640000x128 s rfl rfl 0 rfl (ix2 n ⟨k.val, h⟩)
      (fun b hb => by match b with | ⟨0, _⟩ => rfl | ⟨1, _⟩ => exact absurd rfl hb)
      (by show 0 + k.val = k.val; omega)
  · rename_i h
    split
    · rename_i h2
      exact concatenate_apply_piece 1 _ _ (ix2 n k) 1 (by simp) S640000x128 r rfl rfl 128 rfl (ix2 n ⟨k.val - 128, by omega⟩)
        (fun b hb => by match b with | ⟨0, _⟩ => rfl | ⟨1, _⟩ => exact absurd rfl hb)
        (by show 128 + (k.val - 128) = k.val; omega)
    · rename_i h2
      exact concatenate_apply_piece 1 _ _ (ix2 n k) 2 (by simp) S640000x128 e rfl rfl 256 rfl (ix2 n ⟨k.val - 256, by omega⟩)
        (fun b hb => by match b with | ⟨0, _⟩ => rfl | ⟨1, _⟩ => exact absurd rfl hb)
        (by show 256 + (k.val - 256) = k.val; omega)

/-- The reference's messages are the message function of its two gathered endpoint arrays, the edge features, the
    weights and the bias. -/
theorem messages_eq (x0 : (⟨S20000x128, .f32⟩ : BufTy).Contents (Elt Ideal)) (x1 : (⟨S640000x128, .f32⟩ : BufTy).Contents (Elt Ideal))
    (x2 : (⟨S384x128, .f32⟩ : BufTy).Contents (Elt Ideal)) (x3 : (⟨S128, .f32⟩ : BufTy).Contents (Elt Ideal))
    (x8 x9 : (⟨S640000, .i32⟩ : BufTy).Contents (Elt Ideal)) :
    val_main_v19 (F := Ideal) x0 x1 x2 x3 x8 x9
      = Cert.Spec.msgFn (val_main_v6 (F := Ideal) x0 x8) (val_main_v13 (F := Ideal) x0 x9) x1 x2 x3 := by
  funext i
  obtain ⟨n, j, rfl⟩ : ∃ (n : Fin 640000) (j : Fin 128), i = ix2 n j := ⟨i 0, i 1, eq_ix2 i⟩
  show _ = Cert.Spec.msgAt (val_main_v6 (F := Ideal) x0 x8) (val_main_v13 (F := Ideal) x0 x9) x1 x2 x3 n j
  unfold Cert.Spec.msgAt
  rw [val_main_v19_apply, val_main_v18_apply, val_main_v15_apply, val_main_v17_apply, val_main_v16_apply,
    val_main_call0_v0_apply, val_main_call0_cst_apply]
  have el : ∀ k : Fin 384, lidx_main_v15 (ix2 n j) k = ix2 n k := fun k =>
    funext fun a => Fin.ext (by match a with | ⟨0, _⟩ => rfl | ⟨1, _⟩ => rfl)
  have er : ∀ k : Fin 384, ridx_main_v15 (ix2 n j) k = ix2 k j := fun k =>
    funext fun a => Fin.ext (by match a with | ⟨0, _⟩ => rfl | ⟨1, _⟩ => rfl)
  have eb : idx_main_v16 (idx_main_v17 (ix2 n j)) = ix1 j :=
    funext fun a => Fin.ext (by match a with | ⟨0, _⟩ => rfl)
  simp only [el, er, eb]
  unfold val_main_v14
  simp only [Ideal.maximumf_def, Ideal.addf_def, Ideal.ofBits_def, Ideal.ofBits_zero_f32]
  refine congrArg (fun t => max (t + x3 (ix1 j)) 0) (Finset.sum_congr rfl fun k _ => ?_)
  rw [cat_at]

/-! ## The node update -/

/-- The input-side product plus its bias, at row n and column c. -/
theorem gi_at (x0 : (⟨S20000x128, .f32⟩ : BufTy).Contents (Elt Ideal)) (x1 : (⟨S640000x128, .f32⟩ : BufTy).Contents (Elt Ideal))
    (x2 : (⟨S384x128, .f32⟩ : BufTy).Contents (Elt Ideal)) (x3 : (⟨S128, .f32⟩ : BufTy).Contents (Elt Ideal))
    (x4 : (⟨S128x384, .f32⟩ : BufTy).Contents (Elt Ideal)) (x5 : (⟨S384, .f32⟩ : BufTy).Contents (Elt Ideal))
    (x8 x9 : (⟨S640000, .i32⟩ : BufTy).Contents (Elt Ideal)) (n : Fin 20000) (c : Fin 384) :
    val_main_v26 (F := Ideal) x0 x1 x2 x3 x4 x5 x8 x9 (ix2 n c)
      = Cert.Spec.gi (val_main_v22 (F := Ideal) x0 x1 x2 x3 x8 x9) x4 x5 n c := by
  rw [val_main_v26_apply, val_main_v23_apply, val_main_v25_apply, val_main_v24_apply]
  have el : ∀ k : Fin 128, lidx_main_v23 (ix2 n c) k = ix2 n k := fun k =>
    funext fun a => Fin.ext (by match a with | ⟨0, _⟩ => rfl | ⟨1, _⟩ => rfl)
  have er : ∀ k : Fin 128, ridx_main_v23 (ix2 n c) k = ix2 k c := fun k =>
    funext fun a => Fin.ext (by match a with | ⟨0, _⟩ => rfl | ⟨1, _⟩ => rfl)
  have eb : idx_main_v24 (idx_main_v25 (ix2 n c)) = ix1 c := funext fun a => Fin.ext (by match a with | ⟨0, _⟩ => rfl)
  simp only [el, er, eb, Ideal.addf_def]
  rfl

/-- The state-side product at row n and column c. -/
theorem gh_at (x0 : (⟨S20000x128, .f32⟩ : BufTy).Contents (Elt Ideal))
    (x6 : (⟨S128x384, .f32⟩ : BufTy).Contents (Elt Ideal)) (n : Fin 20000) (c : Fin 384) :
    val_main_v27 (F := Ideal) x0 x6 (ix2 n c) = Cert.Spec.gh x0 x6 n c := by
  rw [val_main_v27_apply]
  have el : ∀ k : Fin 128, lidx_main_v27 (ix2 n c) k = ix2 n k := fun k =>
    funext fun a => Fin.ext (by match a with | ⟨0, _⟩ => rfl | ⟨1, _⟩ => rfl)
  have er : ∀ k : Fin 128, ridx_main_v27 (ix2 n c) k = ix2 k c := fun k =>
    funext fun a => Fin.ext (by match a with | ⟨0, _⟩ => rfl | ⟨1, _⟩ => rfl)
  simp only [el, er]
  rfl

/-- The three column blocks of a 384-column array, read at row n and column j of a block. -/
theorem slice0_at (n : Fin 20000) (j : Fin 128) : idx_main_v28 (ix2 n j) = ix2 n ⟨j.val, by omega⟩ :=
  funext fun a => Fin.ext (by match a with | ⟨0, _⟩ => rfl | ⟨1, _⟩ => rfl)
theorem slice1_at (n : Fin 20000) (j : Fin 128) : idx_main_v29 (ix2 n j) = ix2 n ⟨128 + j.val, by omega⟩ :=
  funext fun a => Fin.ext (by match a with | ⟨0, _⟩ => rfl | ⟨1, _⟩ => rfl)
theorem slice2_at (n : Fin 20000) (j : Fin 128) : idx_main_v30 (ix2 n j) = ix2 n ⟨256 + j.val, by omega⟩ :=
  funext fun a => Fin.ext (by match a with | ⟨0, _⟩ => rfl | ⟨1, _⟩ => rfl)
theorem slice0_at' (n : Fin 20000) (j : Fin 128) : idx_main_v31 (ix2 n j) = ix2 n ⟨j.val, by omega⟩ :=
  funext fun a => Fin.ext (by match a with | ⟨0, _⟩ => rfl | ⟨1, _⟩ => rfl)
theorem slice1_at' (n : Fin 20000) (j : Fin 128) : idx_main_v32 (ix2 n j) = ix2 n ⟨128 + j.val, by omega⟩ :=
  funext fun a => Fin.ext (by match a with | ⟨0, _⟩ => rfl | ⟨1, _⟩ => rfl)
theorem slice2_at' (n : Fin 20000) (j : Fin 128) : idx_main_v33 (ix2 n j) = ix2 n ⟨256 + j.val, by omega⟩ :=
  funext fun a => Fin.ext (by match a with | ⟨0, _⟩ => rfl | ⟨1, _⟩ => rfl)

/-- The reset gate: 1 / (1 + exp (−(gi + gh))) on the first column block is the logistic function there. -/
theorem r_at (x0 : (⟨S20000x128, .f32⟩ : BufTy).Contents (Elt Ideal)) (x1 : (⟨S640000x128, .f32⟩ : BufTy).Contents (Elt Ideal))
    (x2 : (⟨S384x128, .f32⟩ : BufTy).Contents (Elt Ideal)) (x3 : (⟨S128, .f32⟩ : BufTy).Contents (Elt Ideal))
    (x4 : (⟨S128x384, .f32⟩ : BufTy).Contents (Elt Ideal)) (x5 : (⟨S384, .f32⟩ : BufTy).Contents (Elt Ideal))
    (x6 : (⟨S128x384, .f32⟩ : BufTy).Contents (Elt Ideal))
    (x8 x9 : (⟨S640000, .i32⟩ : BufTy).Contents (Elt Ideal)) (n : Fin 20000) (j : Fin 128) :
    val_main_v40 (F := Ideal) x0 x1 x2 x3 x4 x5 x6 x8 x9 (ix2 n j)
      = Cert.Spec.gateR x0 (val_main_v22 (F := Ideal) x0 x1 x2 x3 x8 x9) x4 x5 x6 n j := by
  rw [val_main_v40_apply, val_main_v39_apply, val_main_cst_4_apply, val_main_v38_apply, val_main_v37_apply,
    val_main_cst_3_apply, val_main_v36_apply, val_main_v35_apply, val_main_v34_apply, val_main_v28_apply,
    val_main_v31_apply, slice0_at, slice0_at', gi_at, gh_at]
  simp only [Ideal.hostDivf_def, Ideal.ofBits_def, Ideal.ofBits_one_f32, Ideal.addf_def, Ideal.hostUnary_exp_def,
    Ideal.hostNegf_def, Ideal.negf_def]
  rfl

/-- The update gate: the same on the second column block. -/
theorem z_at (x0 : (⟨S20000x128, .f32⟩ : BufTy).Contents (Elt Ideal)) (x1 : (⟨S640000x128, .f32⟩ : BufTy).Contents (Elt Ideal))
    (x2 : (⟨S384x128, .f32⟩ : BufTy).Contents (Elt Ideal)) (x3 : (⟨S128, .f32⟩ : BufTy).Contents (Elt Ideal))
    (x4 : (⟨S128x384, .f32⟩ : BufTy).Contents (Elt Ideal)) (x5 : (⟨S384, .f32⟩ : BufTy).Contents (Elt Ideal))
    (x6 : (⟨S128x384, .f32⟩ : BufTy).Contents (Elt Ideal))
    (x8 x9 : (⟨S640000, .i32⟩ : BufTy).Contents (Elt Ideal)) (n : Fin 20000) (j : Fin 128) :
    val_main_v47 (F := Ideal) x0 x1 x2 x3 x4 x5 x6 x8 x9 (ix2 n j)
      = Cert.Spec.gateZ x0 (val_main_v22 (F := Ideal) x0 x1 x2 x3 x8 x9) x4 x5 x6 n j := by
  rw [val_main_v47_apply, val_main_v46_apply, val_main_cst_6_apply, val_main_v45_apply, val_main_v44_apply,
    val_main_cst_5_apply, val_main_v43_apply, val_main_v42_apply, val_main_v41_apply, val_main_v29_apply,
    val_main_v32_apply, slice1_at, slice1_at', gi_at, gh_at]
  simp only [Ideal.hostDivf_def, Ideal.ofBits_def, Ideal.ofBits_one_f32, Ideal.addf_def, Ideal.hostUnary_exp_def,
    Ideal.hostNegf_def, Ideal.negf_def]
  rfl

/-- The candidate state: tanh of the third block of gi plus the reset gate times (the third block of gh plus its bias). -/
theorem cand_at (x0 : (⟨S20000x128, .f32⟩ : BufTy).Contents (Elt Ideal)) (x1 : (⟨S640000x128, .f32⟩ : BufTy).Contents (Elt Ideal))
    (x2 : (⟨S384x128, .f32⟩ : BufTy).Contents (Elt Ideal)) (x3 : (⟨S128, .f32⟩ : BufTy).Contents (Elt Ideal))
    (x4 : (⟨S128x384, .f32⟩ : BufTy).Contents (Elt Ideal)) (x5 : (⟨S384, .f32⟩ : BufTy).Contents (Elt Ideal))
    (x6 : (⟨S128x384, .f32⟩ : BufTy).Contents (Elt Ideal)) (x7 : (⟨S128, .f32⟩ : BufTy).Contents (Elt Ideal))
    (x8 x9 : (⟨S640000, .i32⟩ : BufTy).Contents (Elt Ideal)) (n : Fin 20000) (j : Fin 128) :
    val_main_v53 (F := Ideal) x0 x1 x2 x3 x4 x5 x6 x7 x8 x9 (ix2 n j)
      = Cert.Spec.cand x0 (val_main_v22 (F := Ideal) x0 x1 x2 x3 x8 x9) x4 x5 x6 x7 n j := by
  rw [val_main_v53_apply, val_main_v52_apply, val_main_v30_apply, val_main_v51_apply, val_main_v50_apply,
    val_main_v33_apply, val_main_v49_apply, val_main_v48_apply, slice2_at, slice2_at', gi_at, gh_at, r_at]
  have eb : idx_main_v48 (idx_main_v49 (ix2 n j)) = ix1 j := funext fun a => Fin.ext (by match a with | ⟨0, _⟩ => rfl)
  simp only [eb, Ideal.hostUnary_tanh_def, Ideal.addf_def, Ideal.mulf_def]
  rfl

/-- The reference's new nodes are the GRU function of the node features, the aggregated messages, and the gate
    weights and biases. -/
theorem nodes_eq (x0 : (⟨S20000x128, .f32⟩ : BufTy).Contents (Elt Ideal)) (x1 : (⟨S640000x128, .f32⟩ : BufTy).Contents (Elt Ideal))
    (x2 : (⟨S384x128, .f32⟩ : BufTy).Contents (Elt Ideal)) (x3 : (⟨S128, .f32⟩ : BufTy).Contents (Elt Ideal))
    (x4 : (⟨S128x384, .f32⟩ : BufTy).Contents (Elt Ideal)) (x5 : (⟨S384, .f32⟩ : BufTy).Contents (Elt Ideal))
    (x6 : (⟨S128x384, .f32⟩ : BufTy).Contents (Elt Ideal)) (x7 : (⟨S128, .f32⟩ : BufTy).Contents (Elt Ideal))
    (x8 x9 : (⟨S640000, .i32⟩ : BufTy).Contents (Elt Ideal)) :
    val_main_v58 (F := Ideal) x0 x1 x2 x3 x4 x5 x6 x7 x8 x9
      = Cert.Spec.gruFn x0 (val_main_v22 (F := Ideal) x0 x1 x2 x3 x8 x9) x4 x5 x6 x7 := by
  funext i
  obtain ⟨n, j, rfl⟩ : ∃ (n : Fin 20000) (j : Fin 128), i = ix2 n j := ⟨i 0, i 1, eq_ix2 i⟩
  show _ = Cert.Spec.gruAt x0 (val_main_v22 (F := Ideal) x0 x1 x2 x3 x8 x9) x4 x5 x6 x7 n j
  rw [val_main_v58_apply, val_main_v56_apply, val_main_v55_apply, val_main_v54_apply, val_main_cst_7_apply,
    val_main_v57_apply, z_at, cand_at]
  simp only [Ideal.addf_def, Ideal.mulf_def, Ideal.subf_def, Ideal.ofBits_def, Ideal.ofBits_one_f32]
  rfl

end Cert.ReferenceIdeal.Closed

end
-- ==== Proof.lean ====
/-
  A message-passing step on a graph of 20000 nodes and 640000 edges, against its plain reference.

  Both programs compute, from the node features X, the edge features, and the sender and receiver of each edge:
  the edge messages  max ([X[sender] | X[receiver] | edge] · W + b, 0), the messages summed into their receiving nodes,
  and a GRU cell's new node state with those sums as input and X as state.  The kernel program does the two dense
  parts in two launches over blocks of rows (5000 edges, 2000 nodes at a time), with the endpoint lookup and the
  summation on the host between them; the reference does everything on whole arrays.

  The claim is stated for sender and receiver arrays whose entries are node numbers, 0 ≤ · < 20000.  There the kernel
  program's lookup (which fills out-of-range rows with a not-a-number pattern) and the reference's (which clamps) read the
  same rows; outside it they differ.  Every other step is the same arithmetic in the same order on both sides, blocked
  differently: a matrix product into a zero accumulator against a plain product, a block of rows of a row-wise function
  against the function of the block of rows.  No algebraic law beyond 0 + x = x is used, and finiteness of the float
  inputs is not used.

  The pieces: the two whole-array functions (Spec); what each launch leaves in its output array (EdgeValue, NodeValue);
  the kernel program's buffer contents at the launches' boundaries and its run with the results named (Boundary, over
  KernelRun); the reference's two results read index by index (RefClosed); the index range decoded from the
  precondition (IndexRange) and the two lookups under it (TakeRows).
-/
import proofs.«429358_j88811333747467_1_alg».proof.Defs
import proofs.«429358_j88811333747467_1_alg».proof.Proof.Gen.Kernel
import proofs.«429358_j88811333747467_1_alg».proof.Proof.Gen.Kernel.Skeleton
import proofs.«429358_j88811333747467_1_alg».proof.Proof.Gen.Kernel.Launch
import proofs.«429358_j88811333747467_1_alg».proof.Proof.Gen.Kernel.Points
import proofs.«429358_j88811333747467_1_alg».proof.Proof.Gen.Kernel.Frame
import proofs.«429358_j88811333747467_1_alg».proof.Proof.Gen.KernelIdeal
import proofs.«429358_j88811333747467_1_alg».proof.Proof.Gen.KernelIdeal.Skeleton
import proofs.«429358_j88811333747467_1_alg».proof.Proof.Gen.KernelIdeal.Launch
import proofs.«429358_j88811333747467_1_alg».proof.Proof.Gen.KernelIdeal.Points
import proofs.«429358_j88811333747467_1_alg».proof.Proof.Gen.KernelIdeal.Frame
import proofs.«429358_j88811333747467_1_alg».proof.Proof.Gen.ReferenceIdeal
import proofs.«429358_j88811333747467_1_alg».proof.Proof.Gen.ReferenceIdeal.Run
import proofs.«429358_j88811333747467_1_alg».proof.Proof.Gen.ReferenceIdeal.Read
import proofs.«429358_j88811333747467_1_alg».proof.Proof.Gen.Pre_finite_inputs
import proofs.«429358_j88811333747467_1_alg».proof.Proof.Spec
import proofs.«429358_j88811333747467_1_alg».proof.Proof.EdgeValue
import proofs.«429358_j88811333747467_1_alg».proof.Proof.NodeValue
import proofs.«429358_j88811333747467_1_alg».proof.Proof.TakeRows
import proofs.«429358_j88811333747467_1_alg».proof.Proof.IndexRange
import proofs.«429358_j88811333747467_1_alg».proof.Proof.KernelRun
import proofs.«429358_j88811333747467_1_alg».proof.Proof.Boundary
import proofs.«429358_j88811333747467_1_alg».proof.Proof.RefClosed
import Idealize.ShloMosaic.Adequacy
import Idealize.ShloMosaic.Init

set_option maxRecDepth 16384

noncomputable section

namespace Cert.Proof

open Idealize.ShloMosaic Idealize.ShloMosaic.TcCoe Idealize.SL.Sem

/-! ## The reference's aggregation, in the kernel program's spelling -/

/-- The zero array the sums start from. -/
theorem zeros_eq : Cert.ReferenceIdeal.Read.val_main_v20 (F := Ideal)
    = broadcastInDim Cert.KernelIdeal.S20000x128 ![] Cert.KernelIdeal.Facts₀.bcast_S_S20000x128
        (constant (F := Ideal) Cert.KernelIdeal.S_ .f32 0x00000000#32) := rfl

/-- The receivers as a column of start indices. -/
theorem column_eq (idx : IVec Cert.ReferenceIdeal.S640000 32) : Cert.ReferenceIdeal.Read.val_main_v21 (F := Ideal) idx
    = broadcastInDim Cert.KernelIdeal.S640000x1 ![0] Cert.KernelIdeal.Facts₀.bcast_S640000_S640000x1_0 idx := rfl

/-- The two programs' row scatter-adds have the same dimension numbers. -/
theorem scatter_eq (a : FVec Ideal Cert.KernelIdeal.S20000x128 .f32) (i : IVec Cert.KernelIdeal.S640000x1 32)
    (u : FVec Ideal Cert.KernelIdeal.S640000x128 .f32) :
    Host.scatterAdd (F := Ideal) Cert.ReferenceIdeal.scatter_S20000x128_S640000x1_S640000x128_1_0_0_1 a i u
      = Host.scatterAdd (F := Ideal) Cert.KernelIdeal.scatter_S20000x128_S640000x1_S640000x128_1_0_0_1 a i u := rfl

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the GRU update of the node features by the aggregated messages, and with the messages of
    the looked-up endpoint rows: the kernel program by its run read through the two launches, the reference by its run
    read index by index; under the index range the two lookups agree. -/
theorem algebraic : Cert.algebraic_KernelIdeal_ReferenceIdeal := by
  intro m ρ m' ρ' hpre hagree
  have hr : ∀ c : Dev Cert.KernelIdeal.nD,
      (∀ i, (m ((c.tc : Thread Cert.KernelIdeal.nD Cert.KernelIdeal.τ).loc Cert.KernelIdeal.main_arg8) i).toNat < 20000)
      ∧ (∀ i, (m ((c.tc : Thread Cert.KernelIdeal.nD Cert.KernelIdeal.τ).loc Cert.KernelIdeal.main_arg9) i).toNat < 20000) :=
    fun c => Cert.IndexRange.of_pre _ _ _ _ _ _ _ _ _ _ (hpre c)
  refine ⟨_, _, Cert.KernelIdeal.Boundary.run m ρ Cert.KernelIdeal.Edge.messages Cert.KernelIdeal.Node.newNodes, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9⟩ := hagree c
    rw [Cert.ReferenceIdeal.Read.val_main_v58_eq, Cert.ReferenceIdeal.Closed.nodes_eq, a0, a1, a2, a3, a4, a5, a6, a7, a8, a9]
    unfold Cert.ReferenceIdeal.Read.val_main_v22
    rw [Cert.ReferenceIdeal.Closed.messages_eq, zeros_eq, column_eq, scatter_eq,
      ← Cert.KernelIdeal.Take.takeRows_eq_v6 _ _ (hr c).1, ← Cert.KernelIdeal.Take.takeRows_eq_v13 _ _ (hr c).2]
  · obtain ⟨a0, a1, a2, a3, a4, a5, a6, a7, a8, a9⟩ := hagree c
    refine (Cert.ReferenceIdeal.Read.val_main_v19_eq _ _ _ _ _ _).trans ?_
    rw [Cert.ReferenceIdeal.Closed.messages_eq, a0, a1, a2, a3, a8, a9,
      ← Cert.KernelIdeal.Take.takeRows_eq_v6 _ _ (hr c).1, ← Cert.KernelIdeal.Take.takeRows_eq_v13 _ _ (hr c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
